-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1 : Shape := ⟨2, ![256, 1]⟩
abbrev S256x1024 : Shape := ⟨2, ![256, 1024]⟩
abbrev S256 : Shape := ⟨1, ![256]⟩
abbrev S200000x256 : Shape := ⟨2, ![200000, 256]⟩
abbrev S500x512 : Shape := ⟨2, ![500, 512]⟩
abbrev S256x512 : Shape := ⟨2, ![256, 512]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S500x512 : S_.BroadcastsInDim S500x512 (![] : Fin 0 → Fin S500x512.rank)
  reducesTo_S500x512_S_d0_1 : S500x512.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : IVec S256x1 32) (main_arg1 : IVec S256x1024 32) (main_arg2 : IVec S256 32) (main_arg3 : FVec F S200000x256 .f32) (main_arg4 : FVec F S500x512 .f32) (main_arg5 : FVec F S256x512 .f32) (main_arg6 : FVec F S256 .f32) : IVec S_ 1 :=
  let main_v0 : FVec F S200000x256 .f32 := Host.absf main_arg3
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S500x512 .f32 := Host.absf main_arg4
  let main_cst_0 : FVec F S_ .f32 := constant S_ .f32 0x7F800000#32
  let main_v5 : FVec F S500x512 .f32 := broadcastInDim S500x512 ![] bcast_S_S500x512 main_cst_0
  let main_v6 : IVec S500x512 1 := cmpf .olt main_v4 main_v5
  let main_c_1 : IVec S_ 1 := constantI S_ 1 1#1
  let main_v7 : IVec S_ 1 := (fun x v => Host.reduce IntOp.andi x v reducesTo_S500x512_S_d0_1 h_S_) main_v6 main_c_1
  let main_v8 : IVec S_ 1 := andi main_v3 main_v7
  let main_v9 : FVec F S256x512 .f32 := Host.absf main_arg5
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S256x1 : Shape := ⟨2, ![256, 1]⟩
abbrev S256x1024 : Shape := ⟨2, ![256, 1024]⟩
abbrev S256 : Shape := ⟨1, ![256]⟩
abbrev S200000x256 : Shape := ⟨2, ![200000, 256]⟩
abbrev S500x512 : Shape := ⟨2, ![500, 512]⟩
abbrev S256x512 : Shape := ⟨2, ![256, 512]⟩
abbrev S_ : Shape := ⟨0, ![]⟩
abbrev S256x256 : Shape := ⟨2, ![256, 256]⟩
abbrev S256x1024x1 : Shape := ⟨3, ![256, 1024, 1]⟩
abbrev S256x1024x256 : Shape := ⟨3, ![256, 1024, 256]⟩
abbrev S1x256 : Shape := ⟨2, ![1, 256]⟩
abbrev S8x1024x256 : Shape := ⟨3, ![8, 1024, 256]⟩
abbrev S8x256 : Shape := ⟨2, ![8, 256]⟩
abbrev S8x1024 : Shape := ⟨2, ![8, 1024]⟩
abbrev S8x1x256 : Shape := ⟨3, ![8, 1, 256]⟩
abbrev S8x256x256 : Shape := ⟨3, ![8, 256, 256]⟩
abbrev S2048x256 : Shape := ⟨2, ![2048, 256]⟩
abbrev S8x256x1 : Shape := ⟨3, ![8, 256, 1]⟩

abbrev nBuf : Space → Nat
  | .hbm => 64
  | .vmem => 9
  | .smem => 0
  | _ => 0

abbrev bufTy : (tb : Table) → Fin (tcTables nBuf tb) → BufTy
  | .hbm, ⟨0, _⟩ => ⟨S256x1, .i32⟩
  | .hbm, ⟨1, _⟩ => ⟨S256x1024, .i32⟩
  | .hbm, ⟨2, _⟩ => ⟨S256, .i32⟩
  | .hbm, ⟨3, _⟩ => ⟨S200000x256, .f32⟩
  | .hbm, ⟨4, _⟩ => ⟨S500x512, .f32⟩
  | .hbm, ⟨5, _⟩ => ⟨S256x512, .f32⟩
  | .hbm, ⟨6, _⟩ => ⟨S256, .f32⟩
  | .hbm, ⟨7, _⟩ => ⟨S256, .i32⟩
  | .hbm, ⟨8, _⟩ => ⟨S_, .i32⟩
  | .hbm, ⟨9, _⟩ => ⟨S256, .i32⟩
  | .hbm, ⟨10, _⟩ => ⟨S256, .i1⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S256x1, .i32⟩
  | .hbm, ⟨16, _⟩ => ⟨S256x256, .f32⟩
  | .hbm, ⟨17, _⟩ => ⟨S_, .i32⟩
  | .hbm, ⟨18, _⟩ => ⟨S256x1024, .i32⟩
  | .hbm, ⟨19, _⟩ => ⟨S256x1024, .i1⟩
  | .hbm, ⟨20, _⟩ => ⟨S_, .i32⟩
  | .hbm, ⟨21, _⟩ => ⟨S256x1024, .i32⟩
  | .hbm, ⟨22, _⟩ => ⟨S256x1024, .i32⟩
  | .hbm, ⟨23, _⟩ => ⟨S256x1024, .i32⟩
  | .hbm, ⟨24, _⟩ => ⟨S256x1024x1, .i32⟩
  | .hbm, ⟨25, _⟩ => ⟨S256x1024x256, .f32⟩
  | .hbm, ⟨26, _⟩ => ⟨S256x1024x256, .bf16⟩
  | .hbm, ⟨27, _⟩ => ⟨S_, .i32⟩
  | .hbm, ⟨28, _⟩ => ⟨S256, .i32⟩
  | .hbm, ⟨29, _⟩ => ⟨S256, .i1⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S256, .i32⟩
  | .hbm, ⟨34, _⟩ => ⟨S256x1, .i32⟩
  | .hbm, ⟨35, _⟩ => ⟨S256x512, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S256x256, .f32⟩
  | .hbm, ⟨44, _⟩ => ⟨S256x256, .f32⟩
  | .hbm, ⟨45, _⟩ => ⟨S1x256, .f32⟩
  | .hbm, ⟨46, _⟩ => ⟨S256x256, .f32⟩
  | .hbm, ⟨47, _⟩ => ⟨S256x256, .f32⟩
  | .hbm, ⟨48, _⟩ => ⟨S256x256, .f32⟩
  | .hbm, ⟨49, _⟩ => ⟨S_, .f32⟩
  | .hbm, ⟨50, _⟩ => ⟨S256, .f32⟩
  | .hbm, ⟨51, _⟩ => ⟨S256x1, .f32⟩
  | .hbm, ⟨52, _⟩ => ⟨S256x1, .f32⟩
  | .hbm, ⟨53, _⟩ => ⟨S_, .f32⟩
  | .hbm, ⟨54, _⟩ => ⟨S256x1, .f32⟩
  | .hbm, ⟨55, _⟩ => ⟨S256x1, .f32⟩
  | .hbm, ⟨56, _⟩ => ⟨S256x256, .f32⟩
  | .hbm, ⟨57, _⟩ => ⟨S256x256, .f32⟩
  | .hbm, ⟨58, _⟩ => ⟨S256x256, .f32⟩
  | .hbm, ⟨59, _⟩ => ⟨S1x256, .f32⟩
  | .hbm, ⟨60, _⟩ => ⟨S256x256, .f32⟩
  | .hbm, ⟨61, _⟩ => ⟨S256x256, .f32⟩
  | .hbm, ⟨62, _⟩ => ⟨S256x256, .bf16⟩
  | .hbm, ⟨63, _⟩ => ⟨S256x1024, .f32⟩
  | .local _ .vmem, ⟨0, _⟩ => ⟨S8x1024x256, .bf16⟩
  | .local _ .vmem, ⟨1, _⟩ => ⟨S8x1024x256, .bf16⟩
  | .local _ .vmem, ⟨2, _⟩ => ⟨S8x256, .f32⟩
  | .local _ .vmem, ⟨3, _⟩ => ⟨S8x256, .f32⟩
  | .local _ .vmem, ⟨4, _⟩ => ⟨S256x256, .bf16⟩
  | .local _ .vmem, ⟨5, _⟩ => ⟨S8x256, .f32⟩
  | .local _ .vmem, ⟨6, _⟩ => ⟨S8x256, .f32⟩
  | .local _ .vmem, ⟨7, _⟩ => ⟨S8x1024, .f32⟩
  | .local _ .vmem, ⟨8, _⟩ => ⟨S8x1024, .f32⟩
  | _, _ => ⟨S256x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v9 : BitVec 32 := Scalar.muli arg6 c256_i32
  v9
def k0_off1 (k0_t1 : Fin k0_t1_loop.trips) : Fin 3 → Nat :=
  let c0_6 : Index := 0#32
  let c0_i32 : BitVec 32 := 0#32
  let c1_i32 : BitVec 32 := 1#32
  let arg6 : BitVec 32 := Scf.iv c0_i32 c1_i32 k0_t1
  let c256_i32 : BitVec 32 := 256#32
  let v9 : BitVec 32 := Scalar.muli arg6 c256_i32
  let v10 : BitVec 32 := v9
  let v11 : Index := Scalar.indexCast v10
  let c0_7 : Index := 0#32
  ![0, v11.toNat, 0]
def k0_off2 (k0_t1 : Fin k0_t1_loop.trips) : Fin 2 → Nat :=
  let c0_12 : Index := 0#32
  let c0_i32 : BitVec 32 := 0#32
  let c1_i32 : BitVec 32 := 1#32
  let arg6 : BitVec 32 := Scf.iv c0_i32 c1_i32 k0_t1
  let c256_i32 : BitVec 32 := 256#32
  let v9 : BitVec 32 := Scalar.muli arg6 c256_i32
  let v10 : BitVec 32 := v9
  let v33 : Index := Scalar.indexCast v10
  ![0, v33.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256x1_S256 : S256x1.ShapeCasts S256
  bcast_S_S256 : S_.BroadcastsInDim S256 (![] : Fin 0 → Fin S256.rank)
  bcast_S256_S256x1_0 : S256.BroadcastsInDim S256x1 (![0] : Fin 1 → Fin S256x1.rank)
  bcast_S_S256x1024 : S_.BroadcastsInDim S256x1024 (![] : Fin 0 → Fin S256x1024.rank)
  bcast_S256x1024_S256x1024x1_0_1 : S256x1024.BroadcastsInDim S256x1024x1 (![0, 1] : Fin 2 → Fin S256x1024x1.rank)
  bitsLt_bf16_f32 : FTy.bits .bf16 < FTy.bits .f32
  slices_S256x512_S256x256_0_0 : S256x512.Slices ![0, 0] S256x256
  slices_S256x512_S256x256_0_256 : S256x512.Slices ![0, 256] S256x256
  transposes_S256x256_S256x256_1_0 : S256x256.Transposes [1, 0] S256x256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  reducesTo_S256x256_S256_d1 : S256x256.ReducesTo [1] S256
  h_S_ : 0 < S_.numel
  bcast_S_S256x1 : S_.BroadcastsInDim S256x1 (![] : Fin 0 → Fin S256x1.rank)
  bcast_S256x1_S256x256_0_1 : S256x1.BroadcastsInDim S256x256 (![0, 1] : Fin 2 → Fin S256x256.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x1x256 : S8x256.ShapeCasts S8x1x256
  h_S8x256x256 : 0 < S8x256x256.numel
  shapeCasts_S8x256x256_S8x256x256 : S8x256x256.ShapeCasts S8x256x256
  shapeCasts_S8x256x256_S2048x256 : S8x256x256.ShapeCasts S2048x256
  shapeCasts_S2048x256_S8x256x256 : S2048x256.ShapeCasts S8x256x256
  broadcasts_S8x1x256_S8x256x256 : S8x1x256.Broadcasts S8x256x256
  reduces_S8x256x256_S8x256 : S8x256x256.Reduces [2] S8x256
  shapeCasts_S8x256_S8x256x1 : S8x256.ShapeCasts S8x256x1
  broadcasts_S8x256x1_S8x256x256 : S8x256x1.Broadcasts S8x256x256
  gather_S200000x256_S256x1_S256x256_1_0_n_n_0_1_1256_wf : GatherDims.WF S200000x256 S256x1 S256x256 [1] [0] [] [0] [] 1 ![1, 256]
  gather_S200000x256_S256x1024x1_S256x1024x256_2_0_n_n_0_2_1256_wf : GatherDims.WF S200000x256 S256x1024x1 S256x1024x256 [2] [0] [] [0] [] 2 ![1, 256]
  gather_S500x512_S256x1_S256x512_1_0_n_n_0_1_1512_wf : GatherDims.WF S500x512 S256x1 S256x512 [1] [0] [] [0] [] 1 ![1, 512]
  dot_S256x256_S256x256_S256x256_1_0_0_1_n_n_wf : DotDims.WF S256x256 S256x256 S256x256 [1] [0] [0] [1] [] []
  dot_S2048x256_S256x256_S2048x256_1_0_0_1_n_n_wf : DotDims.WF S2048x256 S256x256 S2048x256 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S8x256x256.size a ≤ S8x1024x256.size a
  k0_off2_inb : ∀ k0_t1 : Fin k0_t1_loop.trips, ∀ a, (k0_off2 k0_t1) a + S8x256.size a ≤ S8x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x256.size a ≤ S256x1024x256.size a
  hwx0_0 : ∀ i : grid0.Coords, EltTy.bits .bf16 = 32 ∨ (Rect.block (s := S256x1024x256) S8x1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S256x256.size a
  hwx0_1 : ∀ i : grid0.Coords, EltTy.bits .f32 = 32 ∨ (Rect.block (s := S256x256) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S256x256.size a
  hwx0_3 : ∀ i : grid0.Coords, EltTy.bits .f32 = 32 ∨ (Rect.block (s := S256x256) S8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S256x1024.size a
  hwx0_4 : ∀ i : grid0.Coords, EltTy.bits .f32 = 32 ∨ (Rect.block (s := S256x1024) S8x1024.size (cc0_transform_4 i) (hinb0_4 i)).WholeWords (EltTy.packing .f32)

variable [Facts₀]

def gather_S200000x256_S256x1_S256x256_1_0_n_n_0_1_1256 : GatherDims S200000x256 S256x1 S256x256 where
  offsetDims := [1]
  collapsedSliceDims := [0]
  operandBatchingDims := []
  startIndicesBatchingDims := []
  startIndexMap := [0]
  indexVectorDim := 1
  sliceSizes := ![1, 256]
  wf := gather_S200000x256_S256x1_S256x256_1_0_n_n_0_1_1256_wf
def gather_S200000x256_S256x1024x1_S256x1024x256_2_0_n_n_0_2_1256 : GatherDims S200000x256 S256x1024x1 S256x1024x256 where
  offsetDims := [2]
  collapsedSliceDims := [0]
  operandBatchingDims := []
  startIndicesBatchingDims := []
  startIndexMap := [0]
  indexVectorDim := 2
  sliceSizes := ![1, 256]
  wf := gather_S200000x256_S256x1024x1_S256x1024x256_2_0_n_n_0_2_1256_wf
def gather_S500x512_S256x1_S256x512_1_0_n_n_0_1_1512 : GatherDims S500x512 S256x1 S256x512 where
  offsetDims := [1]
  collapsedSliceDims := [0]
  operandBatchingDims := []
  startIndicesBatchingDims := []
  startIndexMap := [0]
  indexVectorDim := 1
  sliceSizes := ![1, 512]
  wf := gather_S500x512_S256x1_S256x512_1_0_n_n_0_1_1512_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v15) S8x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S8x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v48) S8x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x1 : Shape := ⟨2, ![256, 1]⟩
abbrev S256x1024 : Shape := ⟨2, ![256, 1024]⟩
abbrev S256 : Shape := ⟨1, ![256]⟩
abbrev S200000x256 : Shape := ⟨2, ![200000, 256]⟩
abbrev S500x512 : Shape := ⟨2, ![500, 512]⟩
abbrev S256x512 : Shape := ⟨2, ![256, 512]⟩
abbrev S_ : Shape := ⟨0, ![]⟩
abbrev S256x1x1 : Shape := ⟨3, ![256, 1, 1]⟩
abbrev S256x1x256 : Shape := ⟨3, ![256, 1, 256]⟩
abbrev S256x1024x1 : Shape := ⟨3, ![256, 1024, 1]⟩
abbrev S256x1024x256 : Shape := ⟨3, ![256, 1024, 256]⟩
abbrev S256x1x512 : Shape := ⟨3, ![256, 1, 512]⟩
abbrev S256x1024x512 : Shape := ⟨3, ![256, 1024, 512]⟩
abbrev S1x1x256 : Shape := ⟨3, ![1, 1, 256]⟩

abbrev nBuf : Space → Nat
  | .hbm => 76
  | .vmem => 0
  | .smem => 0
  | _ => 0

abbrev bufTy : (tb : Table) → Fin (tcTables nBuf tb) → BufTy
  | .hbm, ⟨0, _⟩ => ⟨S256x1, .i32⟩
  | .hbm, ⟨1, _⟩ => ⟨S256x1024, .i32⟩
  | .hbm, ⟨2, _⟩ => ⟨S256, .i32⟩
  | .hbm, ⟨3, _⟩ => ⟨S200000x256, .f32⟩
  | .hbm, ⟨4, _⟩ => ⟨S500x512, .f32⟩
  | .hbm, ⟨5, _⟩ => ⟨S256x512, .f32⟩
  | .hbm, ⟨6, _⟩ => ⟨S256, .f32⟩
  | .hbm, ⟨7, _⟩ => ⟨S_, .i32⟩
  | .hbm, ⟨8, _⟩ => ⟨S256x1, .i32⟩
  | .hbm, ⟨9, _⟩ => ⟨S256x1, .i1⟩
  | .hbm, ⟨10, _⟩ => ⟨S_, .i32⟩
  | .hbm, ⟨11, _⟩ => ⟨S256x1, .i32⟩
  | .hbm, ⟨12, _⟩ => ⟨S256x1, .i32⟩
  | .hbm, ⟨13, _⟩ => ⟨S256x1, .i32⟩
  | .hbm, ⟨14, _⟩ => ⟨S256x1x1, .i32⟩
  | .hbm, ⟨15, _⟩ => ⟨S256x1x256, .f32⟩
  | .hbm, ⟨16, _⟩ => ⟨S_, .i32⟩
  | .hbm, ⟨17, _⟩ => ⟨S256x1024, .i32⟩
  | .hbm, ⟨18, _⟩ => ⟨S256x1024, .i1⟩
  | .hbm, ⟨19, _⟩ => ⟨S_, .i32⟩
  | .hbm, ⟨20, _⟩ => ⟨S256x1024, .i32⟩
  | .hbm, ⟨21, _⟩ => ⟨S256x1024, .i32⟩
  | .hbm, ⟨22, _⟩ => ⟨S256x1024, .i32⟩
  | .hbm, ⟨23, _⟩ => ⟨S256x1024x1, .i32⟩
  | .hbm, ⟨24, _⟩ => ⟨S256x1024x256, .f32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S256, .i32⟩
  | .hbm, ⟨32, _⟩ => ⟨S256x1, .i32⟩
  | .hbm, ⟨33, _⟩ => ⟨S256x512, .f32⟩
  | .hbm, ⟨34, _⟩ => ⟨S256x1x512, .f32⟩
  | .hbm, ⟨35, _⟩ => ⟨S256x1x256, .f32⟩
  | .hbm, ⟨36, _⟩ => ⟨S256x1x256, .f32⟩
  | .hbm, ⟨37, _⟩ => ⟨S256x1024x256, .f32⟩
  | .hbm, ⟨38, _⟩ => ⟨S256x1x512, .f32⟩
  | .hbm, ⟨39, _⟩ => ⟨S256x1024x512, .f32⟩
  | .hbm, ⟨40, _⟩ => ⟨S256x1x256, .f32⟩
  | .hbm, ⟨41, _⟩ => ⟨S1x1x256, .f32⟩
  | .hbm, ⟨42, _⟩ => ⟨S256x1x256, .f32⟩
  | .hbm, ⟨43, _⟩ => ⟨S256x1x256, .f32⟩
  | .hbm, ⟨44, _⟩ => ⟨S256x1024x256, .f32⟩
  | .hbm, ⟨45, _⟩ => ⟨S1x1x256, .f32⟩
  | .hbm, ⟨46, _⟩ => ⟨S256x1024x256, .f32⟩
  | .hbm, ⟨47, _⟩ => ⟨S256x1024x256, .f32⟩
  | .hbm, ⟨48, _⟩ => ⟨S256x1x256, .f32⟩
  | .hbm, ⟨49, _⟩ => ⟨S_, .f32⟩
  | .hbm, ⟨50, _⟩ => ⟨S256x1, .f32⟩
  | .hbm, ⟨51, _⟩ => ⟨S256x1x1, .f32⟩
  | .hbm, ⟨52, _⟩ => ⟨S256x1x1, .f32⟩
  | .hbm, ⟨53, _⟩ => ⟨S_, .f32⟩
  | .hbm, ⟨54, _⟩ => ⟨S256x1x1, .f32⟩
  | .hbm, ⟨55, _⟩ => ⟨S256x1x1, .f32⟩
  | .hbm, ⟨56, _⟩ => ⟨S256x1x256, .f32⟩
  | .hbm, ⟨57, _⟩ => ⟨S256x1x256, .f32⟩
  | .hbm, ⟨58, _⟩ => ⟨S256x1024x256, .f32⟩
  | .hbm, ⟨59, _⟩ => ⟨S_, .f32⟩
  | .hbm, ⟨60, _⟩ => ⟨S256x1024, .f32⟩
  | .hbm, ⟨61, _⟩ => ⟨S256x1024x1, .f32⟩
  | .hbm, ⟨62, _⟩ => ⟨S256x1024x1, .f32⟩
  | .hbm, ⟨63, _⟩ => ⟨S_, .f32⟩
  | .hbm, ⟨64, _⟩ => ⟨S256x1024x1, .f32⟩
  | .hbm, ⟨65, _⟩ => ⟨S256x1024x1, .f32⟩
  | .hbm, ⟨66, _⟩ => ⟨S256x1024x256, .f32⟩
  | .hbm, ⟨67, _⟩ => ⟨S256x1024x256, .f32⟩
  | .hbm, ⟨68, _⟩ => ⟨S256x1024x256, .f32⟩
  | .hbm, ⟨69, _⟩ => ⟨S256x1024x256, .f32⟩
  | .hbm, ⟨70, _⟩ => ⟨S256x1024x256, .f32⟩
  | .hbm, ⟨71, _⟩ => ⟨S_, .f32⟩
  | .hbm, ⟨72, _⟩ => ⟨S256x1024, .f32⟩
  | .hbm, ⟨73, _⟩ => ⟨S_, .f32⟩
  | .hbm, ⟨74, _⟩ => ⟨S256x1024, .f32⟩
  | .hbm, ⟨75, _⟩ => ⟨S256x1024, .f32⟩
  | _, _ => ⟨S256x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]

class Facts₀ : Prop where
  bcast_S_S256x1 : S_.BroadcastsInDim S256x1 (![] : Fin 0 → Fin S256x1.rank)
  bcast_S256x1_S256x1x1_0_1 : S256x1.BroadcastsInDim S256x1x1 (![0, 1] : Fin 2 → Fin S256x1x1.rank)
  bcast_S_S256x1024 : S_.BroadcastsInDim S256x1024 (![] : Fin 0 → Fin S256x1024.rank)
  bcast_S256x1024_S256x1024x1_0_1 : S256x1024.BroadcastsInDim S256x1024x1 (![0, 1] : Fin 2 → Fin S256x1024x1.rank)
  bcast_S_S256 : S_.BroadcastsInDim S256 (![] : Fin 0 → Fin S256.rank)
  bcast_S256_S256x1_0 : S256.BroadcastsInDim S256x1 (![0] : Fin 1 → Fin S256x1.rank)
  bcast_S256x512_S256x1x512_0_2 : S256x512.BroadcastsInDim S256x1x512 (![0, 2] : Fin 2 → Fin S256x1x512.rank)
  slices_S256x1x512_S256x1x256_0_0_0 : S256x1x512.Slices ![0, 0, 0] S256x1x256
  slices_S256x1x512_S256x1x256_0_0_256 : S256x1x512.Slices ![0, 0, 256] S256x1x256
  bcast_S256x1x256_S256x1024x256_0_1_2 : S256x1x256.BroadcastsInDim S256x1024x256 (![0, 1, 2] : Fin 3 → Fin S256x1024x256.rank)
  concatenates_S256x1x256_S256x1x256_S256x1x512_d2 : Shape.Concatenates [S256x1x256, S256x1x256] S256x1x512 2
  concatenates_S256x1024x256_S256x1024x256_S256x1024x512_d2 : Shape.Concatenates [S256x1024x256, S256x1024x256] S256x1024x512 2
  bcast_S256_S1x1x256_2 : S256.BroadcastsInDim S1x1x256 (![2] : Fin 1 → Fin S1x1x256.rank)
  bcast_S1x1x256_S256x1x256_0_1_2 : S1x1x256.BroadcastsInDim S256x1x256 (![0, 1, 2] : Fin 3 → Fin S256x1x256.rank)
  bcast_S1x1x256_S256x1024x256_0_1_2 : S1x1x256.BroadcastsInDim S256x1024x256 (![0, 1, 2] : Fin 3 → Fin S256x1024x256.rank)
  reducesTo_S256x1x256_S256x1_d2 : S256x1x256.ReducesTo [2] S256x1
  h_S_ : 0 < S_.numel
  bcast_S_S256x1x1 : S_.BroadcastsInDim S256x1x1 (![] : Fin 0 → Fin S256x1x1.rank)
  bcast_S256x1x1_S256x1x256_0_1_2 : S256x1x1.BroadcastsInDim S256x1x256 (![0, 1, 2] : Fin 3 → Fin S256x1x256.rank)
  reducesTo_S256x1024x256_S256x1024_d2 : S256x1024x256.ReducesTo [2] S256x1024
  bcast_S_S256x1024x1 : S_.BroadcastsInDim S256x1024x1 (![] : Fin 0 → Fin S256x1024x1.rank)
  bcast_S256x1024x1_S256x1024x256_0_1_2 : S256x1024x1.BroadcastsInDim S256x1024x256 (![0, 1, 2] : Fin 3 → Fin S256x1024x256.rank)
  gather_S200000x256_S256x1x1_S256x1x256_2_0_n_n_0_2_1256_wf : GatherDims.WF S200000x256 S256x1x1 S256x1x256 [2] [0] [] [0] [] 2 ![1, 256]
  gather_S200000x256_S256x1024x1_S256x1024x256_2_0_n_n_0_2_1256_wf : GatherDims.WF S200000x256 S256x1024x1 S256x1024x256 [2] [0] [] [0] [] 2 ![1, 256]
  gather_S500x512_S256x1_S256x512_1_0_n_n_0_1_1512_wf : GatherDims.WF S500x512 S256x1 S256x512 [1] [0] [] [0] [] 1 ![1, 512]
  dot_S256x1x512_S256x512_S256x1x256_2_1_01_0_n_n_wf : DotDims.WF S256x1x512 S256x512 S256x1x256 [2] [1] [0, 1] [0] [] []
  dot_S256x1024x512_S256x512_S256x1024x256_2_1_01_0_n_n_wf : DotDims.WF S256x1024x512 S256x512 S256x1024x256 [2] [1] [0, 1] [0] [] []

variable [Facts₀]

def gather_S200000x256_S256x1x1_S256x1x256_2_0_n_n_0_2_1256 : GatherDims S200000x256 S256x1x1 S256x1x256 where
  offsetDims := [2]
  collapsedSliceDims := [0]
  operandBatchingDims := []
  startIndicesBatchingDims := []
  startIndexMap := [0]
  indexVectorDim := 2
  sliceSizes := ![1, 256]
  wf := gather_S200000x256_S256x1x1_S256x1x256_2_0_n_n_0_2_1256_wf
def gather_S200000x256_S256x1024x1_S256x1024x256_2_0_n_n_0_2_1256 : GatherDims S200000x256 S256x1024x1 S256x1024x256 where
  offsetDims := [2]
  collapsedSliceDims := [0]
  operandBatchingDims := []
  startIndicesBatchingDims := []
  startIndexMap := [0]
  indexVectorDim := 2
  sliceSizes := ![1, 256]
  wf := gather_S200000x256_S256x1024x1_S256x1024x256_2_0_n_n_0_2_1256_wf
def gather_S500x512_S256x1_S256x512_1_0_n_n_0_1_1512 : GatherDims S500x512 S256x1 S256x512 where
  offsetDims := [1]
  collapsedSliceDims := [0]
  operandBatchingDims := []
  startIndicesBatchingDims := []
  startIndexMap := [0]
  indexVectorDim := 1
  sliceSizes := ![1, 512]
  wf := gather_S500x512_S256x1_S256x512_1_0_n_n_0_1_1512_wf
def dot_S256x1x512_S256x512_S256x1x256_2_1_01_0_n_n : DotDims S256x1x512 S256x512 S256x1x256 where
  lhsContracting := [2]
  rhsContracting := [1]
  lhsNonContracting := [0, 1]
  rhsNonContracting := [0]
  lhsBatch := []
  rhsBatch := []
  wf := dot_S256x1x512_S256x512_S256x1x256_2_1_01_0_n_n_wf
def dot_S256x1024x512_S256x512_S256x1024x256_2_1_01_0_n_n : DotDims S256x1024x512 S256x512 S256x1024x256 where
  lhsContracting := [2]
  rhsContracting := [1]
  lhsNonContracting := [0, 1]
  rhsNonContracting := [0]
  lhsBatch := []
  rhsBatch := []
  wf := dot_S256x1024x512_S256x512_S256x1024x256_2_1_01_0_n_n_wf

class Facts : Prop extends Facts₀ where

variable [Facts]
-- ==== Proof.Score.lean ====
/-
  The mathematics of the certificate, free of any program text.

  A knowledge-graph score. An entity row x ∈ ℝ²⁵⁶ and half a relation row r ∈ ℝ²⁵⁶ are joined into one row of
  width 512 and sent through one affine map  y ↦ W y + β  (W of shape 256 × 512); the image is divided by its
  Euclidean length (floored at a tiny positive constant), and the score of a head against a tail is a margin less
  the ℓ¹ distance of the two unit vectors.

  One program forms  W (x ⊕ r)  as ONE sum over the 512 joined coordinates; the other splits W into its left and
  right halves and forms  W_left x + W_right r, for the tail even  W_left x + (W_right r + β).  On the extended
  reals addition is commutative and associative, so a sum over 512 coordinates is the sum over the first 256 plus
  the sum over the last 256, and the two bracketings agree: no finiteness is needed for any step here.
-/
import Idealize.ShloMosaic.PureOps.Ideal
import Mathlib.Algebra.BigOperators.Fin

noncomputable section

open scoped BigOperators

namespace Cert.Score

open Idealize.ShloMosaic

/-- Position k of the left half of a joined row. -/
abbrev lo (k : Fin 256) : Fin 512 := ⟨k.val, by omega⟩
/-- Position k of the right half of a joined row. -/
abbrev hi (k : Fin 256) : Fin 512 := ⟨256 + k.val, by omega⟩

/-- A sum over the 512 joined coordinates is the sum over the left half plus the sum over the right half. -/
theorem sum_halves {M : Type*} [AddCommMonoid M] (f : Fin 512 → M) :
    ∑ j, f j = ∑ k : Fin 256, f (lo k) + ∑ k : Fin 256, f (hi k) := by
  have h := Fin.sum_univ_add (a := 256) (b := 256) (fun j : Fin (256 + 256) => f ⟨j.val, j.isLt⟩)
  exact h

/-- The floor under a Euclidean length: the binary32 number nearest 10⁻¹², the same word in both programs. -/
abbrev tiny : EReal := Ideal.ofBits .f32 0x2B8CBCCC#32
/-- The margin 12. -/
abbrev margin : EReal := Ideal.ofBits .f32 0x41400000#32

/-- The Euclidean length of a row, floored. -/
def len (x : Fin 256 → EReal) : EReal := max (Ideal.sqrt (∑ d, x d * x d)) tiny
/-- A row divided by its floored length. -/
def unit (x : Fin 256 → EReal) (d : Fin 256) : EReal := Ideal.div (x d) (len x)
/-- The margin less the ℓ¹ distance of two rows (|a| is max a (−a)). -/
def score (h t : Fin 256 → EReal) : EReal := margin - ∑ d, max (h d - t d) (-(h d - t d))

/-- The row x ⊕ r of width 512. -/
def join (x r : Fin 256 → EReal) (j : Fin 512) : EReal :=
  if h : j.val < 256 then x ⟨j.val, h⟩ else r ⟨j.val - 256, by omega⟩

theorem join_lo (x r : Fin 256 → EReal) (k : Fin 256) : join x r (lo k) = x k := by
  unfold join; rw [dif_pos k.isLt]
theorem join_hi (x r : Fin 256 → EReal) (k : Fin 256) : join x r (hi k) = r k := by
  unfold join
  rw [dif_neg (by show ¬ (256 + k.val < 256); omega)]
  congr 1; exact Fin.ext (by show 256 + k.val - 256 = k.val; omega)

/-- The affine map on a joined row, as ONE sum over its 512 coordinates, then the bias. -/
def affJoined (W : Fin 256 → Fin 512 → EReal) (β : Fin 256 → EReal) (y : Fin 512 → EReal) (d : Fin 256) : EReal :=
  (∑ j, y j * W d j) + β d
/-- The same map by halves: W_left x + W_right r, then the bias. -/
def affSplit (W : Fin 256 → Fin 512 → EReal) (β : Fin 256 → EReal) (x r : Fin 256 → EReal) (d : Fin 256) : EReal :=
  (∑ k, x k * W d (lo k) + ∑ k, r k * W d (hi k)) + β d

/-- W (x ⊕ r) + β = W_left x + W_right r + β. -/
theorem affJoined_join (W : Fin 256 → Fin 512 → EReal) (β : Fin 256 → EReal) (x r : Fin 256 → EReal) :
    affJoined W β (join x r) = affSplit W β x r := by
  funext d
  unfold affJoined affSplit
  rw [sum_halves]
  simp only [join_lo, join_hi]

/-- The bracketing W_left x + (W_right r + β), as the tail's program forms it, is the same number. -/
theorem affSplit_assoc (W : Fin 256 → Fin 512 → EReal) (β : Fin 256 → EReal) (x r : Fin 256 → EReal) (d : Fin 256) :
    (∑ k, x k * W d (lo k)) + ((∑ k, r k * W d (hi k)) + β d) = affSplit W β x r d := by
  unfold affSplit; rw [add_assoc]

/-- THE RESULT both programs compute, entry (b, n): the head row H b and the tail row T b n of the entity table, each
    joined with its half of the relation row Rr b (the head with the left half, the tail with the right half), mapped,
    normalised, scored. -/
def result (H : Fin 256 → Fin 256 → EReal) (T : Fin 256 → Fin 1024 → Fin 256 → EReal) (Rr : Fin 256 → Fin 512 → EReal)
    (W : Fin 256 → Fin 512 → EReal) (β : Fin 256 → EReal) (b : Fin 256) (n : Fin 1024) : EReal :=
  score (unit (affSplit W β (H b) (fun k => Rr b (lo k)))) (unit (affSplit W β (T b n) (fun k => Rr b (hi k))))

end Cert.Score

end
-- ==== Proof.Payload.lean ====
/-
  What one chunk of the kernel body computes, entry by entry.

  The body takes 8 batch rows at a time and walks the 1024 tail samples in four chunks of 256. For one chunk it holds
  a block t of shape [8, 256, 256] of tail rows, the weight's left half transposed w [256, 256], the per-row offset
  o [8, 256] (the relation half already mapped, plus the bias) and the normalised head h [8, 256]. Entry (p, q) of
  what it stores is
      12 − Σ_d | h[p, d] − y[d] / max(√(Σ_d' y[d']²), tiny) |     with   y[d] = Σ_k t[p, q, k] · w[k, d] + o[p, d].
  The matrix product is taken on the block flattened to [2048, 256] (row 256 p + q) and reshaped back; the two row
  vectors are broadcast along the sample axis; both sums run along the last axis.
-/
import proofs.«400054_j32933809226069_3_alg».proof.Proof.Gen.KernelIdeal.Skeleton
import proofs.«400054_j32933809226069_3_alg».proof.Proof.Score
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- A sum along the last axis of an [8, 256, 256] array, at (p, q): the sum over d of the entries (p, q, d). -/
theorem laneSum_apply (src : FVec Ideal S8x256x256 .f32) (h : S8x256x256.Reduces [2] S8x256) (hφ : FKind.Formats .f32)
    (hacc : (0x00000000#32 : BitVec (FTy.bits .f32)) = FKind.add.neutral .f32 hφ) (p : Fin 8) (q : Fin 256) :
    multiReduction .add [2] S8x256 src 0x00000000#32 h hφ hacc (ix2 p q) = ∑ d : Fin 256, src (ix3 p q d) := by
  refine (Ideal.multiReduction_add_single src _ h hφ hacc (ix2 p q)).trans ?_
  refine Finset.sum_congr rfl fun d _ => congrArg src ?_
  funext a; refine Fin.ext ?_
  match a with
  | ⟨0, _⟩ => rfl
  | ⟨1, _⟩ => rfl
  | ⟨2, _⟩ => rfl

/-- A row vector [8, 256] viewed as [8, 1, 256] and broadcast along the middle axis, at (p, q, d): its entry (p, d). -/
theorem rowBroadcast_apply (u : FVec Ideal S8x256 .f32) (h0 : S8x256.ShapeCasts S8x256) (h1 : S8x256.ShapeCasts S8x1x256)
    (h2 : S8x1x256.Broadcasts S8x256x256) (p : Fin 8) (q d : Fin 256) :
    broadcastTo S8x256x256 (shapeCast S8x1x256 (shapeCast S8x256 u h0) h1) h2 (ix3 p q d) = u (ix2 p d) := by
  refine (broadcastTo_apply _ h2 (ix3 p q d) (ix3 p (0 : Fin 1) d) (fun a => ?_)).trans ?_
  · match a with
    | ⟨0, _⟩ => rfl
    | ⟨1, _⟩ => rfl
    | ⟨2, _⟩ => rfl
  · refine (shapeCast_apply _ h1 (ix3 p (0 : Fin 1) d) (ix2 p d) ?_).trans ?_
    · rw [Shape.rowMajor_val_two, Shape.rowMajor_val_three]
      show p.val * 256 + d.val = (p.val * 1 + 0) * 256 + d.val
      omega
    · rw [shapeCast_self]

/-- The contracted position of the flattened product, read off the operand indices (left operand: row, then the
    contracted coordinate; right operand: the contracted coordinate, then column). -/
theorem lhs_flat_0 (i : S2048x256.Idx) (k : dot_S2048x256_S256x256_S2048x256_1_0_0_1_n_n.contr.Idx) :
    (dot_S2048x256_S256x256_S2048x256_1_0_0_1_n_n.lhsIdx i k 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_flat_1 (i : S2048x256.Idx) (k : dot_S2048x256_S256x256_S2048x256_1_0_0_1_n_n.contr.Idx) :
    (dot_S2048x256_S256x256_S2048x256_1_0_0_1_n_n.lhsIdx i k 1).val = (k ⟨0, by decide⟩).val :=
  dot_S2048x256_S256x256_S2048x256_1_0_0_1_n_n.lhsIdx_val_of_single rfl i k
theorem rhs_flat_0 (i : S2048x256.Idx) (k : dot_S2048x256_S256x256_S2048x256_1_0_0_1_n_n.contr.Idx) :
    (dot_S2048x256_S256x256_S2048x256_1_0_0_1_n_n.rhsIdx i k 0).val = (k ⟨0, by decide⟩).val :=
  dot_S2048x256_S256x256_S2048x256_1_0_0_1_n_n.rhsIdx_val_of_single rfl i k
theorem rhs_flat_1 (i : S2048x256.Idx) (k : dot_S2048x256_S256x256_S2048x256_1_0_0_1_n_n.contr.Idx) :
    (dot_S2048x256_S256x256_S2048x256_1_0_0_1_n_n.rhsIdx i k 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The product of the flattened block with w into a zero accumulator, reshaped back, at (p, q, d):
    Σ_k t[p, q, k] · w[k, d]. -/
theorem flatProduct_apply (t : FVec Ideal S8x256x256 .bf16) (w : FVec Ideal S256x256 .bf16)
    (h1 : S8x256x256.ShapeCasts S2048x256) (h2 : S2048x256.ShapeCasts S8x256x256) (p : Fin 8) (q d : Fin 256) :
    shapeCast S8x256x256 (matmul dot_S2048x256_S256x256_S2048x256_1_0_0_1_n_n none (shapeCast S2048x256 t h1) w
        (constant S2048x256 .f32 0x00000000#32)) h2 (ix3 p q d)
      = ∑ k : Fin 256, t (ix3 p q k) * w (ix2 k d) := by
  have hr : 256 * p.val + q.val < 2048 := by omega
  refine (shapeCast_apply _ h2 (ix3 p q d) (ix2 (⟨256 * p.val + q.val, hr⟩ : Fin 2048) d) ?_).trans ?_
  · rw [Shape.rowMajor_val_two, Shape.rowMajor_val_three]
    show (256 * p.val + q.val) * 256 + d.val = (p.val * 256 + q.val) * 256 + d.val
    omega
  · simp only [matmul]
    rw [Ideal.matmul_constant_zero_apply, ← Equiv.sum_comp (contrEquiv1 dot_S2048x256_S256x256_S2048x256_1_0_0_1_n_n 256 rfl rfl).symm]
    refine Finset.sum_congr rfl fun k _ => ?_
    have hk := contrEquiv1_symm_val dot_S2048x256_S256x256_S2048x256_1_0_0_1_n_n 256 rfl rfl k
    have el : shapeCast S2048x256 t h1 (dot_S2048x256_S256x256_S2048x256_1_0_0_1_n_n.lhsIdx (ix2 (⟨256 * p.val + q.val, hr⟩ : Fin 2048) d)
        ((contrEquiv1 dot_S2048x256_S256x256_S2048x256_1_0_0_1_n_n 256 rfl rfl).symm k)) = t (ix3 p q k) := by
      refine shapeCast_apply t h1 _ (ix3 p q k) ?_
      rw [Shape.rowMajor_val_two, Shape.rowMajor_val_three, lhs_flat_0, lhs_flat_1, hk]
      show (p.val * 256 + q.val) * 256 + k.val = (256 * p.val + q.val) * 256 + k.val
      omega
    have er : dot_S2048x256_S256x256_S2048x256_1_0_0_1_n_n.rhsIdx (ix2 (⟨256 * p.val + q.val, hr⟩ : Fin 2048) d)
        ((contrEquiv1 dot_S2048x256_S256x256_S2048x256_1_0_0_1_n_n 256 rfl rfl).symm k) = ix2 k d := funext fun a => Fin.ext (by
      match a with
      | ⟨0, _⟩ => exact (rhs_flat_0 _ _).trans hk
      | ⟨1, _⟩ => exact rhs_flat_1 _ _)
    rw [el, er]

/-- A column [8, 256] viewed as [8, 256, 1] and broadcast along the last axis, at (p, q, d): its entry (p, q). -/
theorem colBroadcast_apply (u : FVec Ideal S8x256x1 .f32) (h2 : S8x256x1.Broadcasts S8x256x256) (p : Fin 8) (q d : Fin 256) :
    broadcastTo S8x256x256 u h2 (ix3 p q d) = u (ix3 p q (0 : Fin 1)) := by
  refine broadcastTo_apply _ h2 (ix3 p q d) (ix3 p q (0 : Fin 1)) (fun a => ?_)
  match a with
  | ⟨0, _⟩ => rfl
  | ⟨1, _⟩ => rfl
  | ⟨2, _⟩ => rfl

theorem colCast_apply (u : FVec Ideal S8x256 .f32) (h1 : S8x256.ShapeCasts S8x256x1) (p : Fin 8) (q : Fin 256) :
    shapeCast S8x256x1 u h1 (ix3 p q (0 : Fin 1)) = u (ix2 p q) := by
  refine shapeCast_apply _ h1 (ix3 p q (0 : Fin 1)) (ix2 p q) ?_
  rw [Shape.rowMajor_val_two, Shape.rowMajor_val_three]
  show p.val * 256 + q.val = (p.val * 256 + q.val) * 1 + 0
  omega

/-- Dividing an [8, 256, 256] array by the floored Euclidean length of each of its last-axis rows, at (p, q, d). -/
theorem normalise_apply (y : FVec Ideal S8x256x256 .f32) (h : S8x256x256.Reduces [2] S8x256) (hφ : FKind.Formats .f32)
    (hacc : (0x00000000#32 : BitVec (FTy.bits .f32)) = FKind.add.neutral .f32 hφ)
    (h1 : S8x256.ShapeCasts S8x256x1) (h2 : S8x256x1.Broadcasts S8x256x256) (p : Fin 8) (q d : Fin 256) :
    divf y (broadcastTo S8x256x256 (maximumf (sqrt (shapeCast S8x256x1 (multiReduction .add [2] S8x256 (mulf y y) 0x00000000#32 h hφ hacc) h1))
        (broadcast S8x256x1 (Scalar.ofBits (F := Ideal) .f32 0x2B8CBCCC#32))) h2) (ix3 p q d)
      = Score.unit (fun d' => y (ix3 p q d')) d := by
  rw [divf_apply, colBroadcast_apply, maximumf_apply, broadcast_apply]
  show Ideal.div (y (ix3 p q d)) (max (Ideal.sqrt (shapeCast S8x256x1 (multiReduction .add [2] S8x256 (mulf y y) 0x00000000#32 h hφ hacc) h1 (ix3 p q (0 : Fin 1)))) _) = _
  rw [colCast_apply, laneSum_apply]
  rfl

/-- The margin less the last-axis sum of |a − b|, at (p, q). -/
theorem distance_apply (a b : FVec Ideal S8x256x256 .f32) (h : S8x256x256.Reduces [2] S8x256) (hφ : FKind.Formats .f32)
    (hacc : (0x00000000#32 : BitVec (FTy.bits .f32)) = FKind.add.neutral .f32 hφ) (p : Fin 8) (q : Fin 256) :
    subf (broadcast S8x256 (Scalar.ofBits (F := Ideal) .f32 0x41400000#32)) (multiReduction .add [2] S8x256 (absf (subf a b)) 0x00000000#32 h hφ hacc) (ix2 p q)
      = Score.score (fun d => a (ix3 p q d)) (fun d => b (ix3 p q d)) := by
  rw [subf_apply, broadcast_apply, laneSum_apply]
  rfl

/-- ENTRY (p, q) OF ONE CHUNK'S STORE. -/
theorem chunk_apply (w : FVec Ideal S256x256 .bf16) (o hn : FVec Ideal S8x256 .f32) (t : FVec Ideal S8x256x256 .bf16) (p : Fin 8) (q : Fin 256) :
    k0_pay1 (F := Ideal) w o hn t (ix2 p q)
      = Score.score (fun d => hn (ix2 p d)) (Score.unit (fun d => (∑ k : Fin 256, t (ix3 p q k) * w (ix2 k d)) + o (ix2 p d))) := by
  unfold k0_pay1
  refine (distance_apply _ _ _ _ _ p q).trans ?_
  congr 1
  · funext d; exact rowBroadcast_apply hn _ _ _ p q d
  · funext d
    refine (normalise_apply _ _ _ _ _ _ p q d).trans ?_
    congr 1
    funext d'
    rw [addf_apply, rowBroadcast_apply, shapeCast_self, shapeCast_self]
    rw [flatProduct_apply]

end Cert.KernelIdeal.Payload

end
-- ==== Proof.Block.lean ====
/-
  What the kernel body leaves in its [8, 1024] output block, as ONE function of its four input blocks.

  The body's loop stores one [8, 256] chunk per trip k, at columns 256 k … 256 k + 255, computed from the tail rows it
  loads at samples 256 k … 256 k + 255. So entry (p, n) of the block, whichever trip wrote it, is the score of head
  row p against tail sample (p, n): each chunk is the restriction of one function of the block index, and the four
  chunks tile the block.
-/
import proofs.«400054_j32933809226069_3_alg».proof.Proof.Gen.KernelIdeal.Frame
import proofs.«400054_j32933809226069_3_alg».proof.Proof.Payload

set_option maxRecDepth 16384

noncomputable section

open scoped BigOperators

namespace Cert.KernelIdeal.Block

open Cert.KernelIdeal Cert.KernelIdeal.Gen Idealize.ShloMosaic Idealize.ShloMosaic.TcCoe Idealize.ShloMosaic.ValueIdx
open Idealize.SL Idealize.SL.Sem

/-- Entry (p, n) of the block: the score of the head row hn[p, ·] against the unit vector of
    y[d] = Σ_k t[p, n, k] · w[k, d] + o[p, d]. -/
def entry (t : FVec Ideal S8x1024x256 .bf16) (o : FVec Ideal S8x256 .f32) (w : FVec Ideal S256x256 .bf16) (hn : FVec Ideal S8x256 .f32)
    (p : Fin 8) (n : Fin 1024) : EReal :=
  Score.score (fun d => hn (ix2 p d)) (Score.unit (fun d => (∑ k : Fin 256, t (ix3 p n k) * w (ix2 k d)) + o (ix2 p d)))

/-- The block as a function of its index. -/
def blockFn (t : FVec Ideal S8x1024x256 .bf16) (o : FVec Ideal S8x256 .f32) (w : FVec Ideal S256x256 .bf16) (hn : FVec Ideal S8x256 .f32) :
    S8x1024.Idx → EReal := fun y => entry t o w hn (y 0) (y 1)

/-- A loop trip index is below 4. -/
theorem trip_lt (k : Fin k0_t1_loop.trips) : k.val < 4 := Nat.lt_of_lt_of_le k.isLt k0_t1_abs.2.1

/-- Trip k stores at columns 256 k + q. -/
theorem store_emb (k : Fin k0_t1_loop.trips) (inb : ∀ a, (k0_off2 k) a + S8x256.size a ≤ S8x1024.size a) (p : Fin 8) (q : Fin 256) :
    (Rect.unit (s := S8x1024) (k0_off2 k) S8x256.size inb).emb (ix2 p q)
      = ix2 p (⟨256 * k.val + q.val, by have := trip_lt k; omega⟩ : Fin 1024) := by
  funext a; refine Fin.ext ?_
  rw [Rect.emb_apply]
  simp only [Rect.off_unit, Rect.stride_unit, k0_off2_eq]
  match a with
  | ⟨0, _⟩ => show 0 + 1 * p.val = p.val; omega
  | ⟨1, _⟩ => show 256 * k.val + 1 * q.val = 256 * k.val + q.val; omega

/-- Trip k loads the tail rows of samples 256 k + q. -/
theorem load_idx (k : Fin k0_t1_loop.trips) (inb : ∀ a, (k0_off1 k) a + S8x256x256.size a ≤ S8x1024x256.size a) (p : Fin 8) (q j : Fin 256) :
    (Rect.unit (s := S8x1024x256) (k0_off1 k) S8x256x256.size inb).toLoadRect.idx (ix3 p q j)
      = ix3 p (⟨256 * k.val + q.val, by have := trip_lt k; omega⟩ : Fin 1024) j := by
  funext a; refine Fin.ext ?_
  rw [LoadRect.idx_apply]
  simp only [Rect.off_unit, Rect.stride_unit, k0_off1_eq]
  match a with
  | ⟨0, _⟩ => show 0 + 1 * p.val = p.val; omega
  | ⟨1, _⟩ => show 256 * k.val + 1 * q.val = 256 * k.val + q.val; omega
  | ⟨2, _⟩ => show 0 + 1 * j.val = j.val; omega

/-- The chunk's arithmetic over the tail rows trip k loads out of a block X, at (p, q): entry (p, 256 k + q) of the block. -/
theorem chunk_entry (X : FVec Ideal S8x1024x256 .bf16) (w : FVec Ideal S256x256 .bf16) (o hn : FVec Ideal S8x256 .f32)
    (k : Fin k0_t1_loop.trips) (inb : ∀ a, (k0_off1 k) a + S8x256x256.size a ≤ S8x1024x256.size a) (p : Fin 8) (q : Fin 256) :
    k0_pay1 (F := Ideal) w o hn (View.ld X (Rect.unit (s := S8x1024x256) (k0_off1 k) S8x256x256.size inb)) (ix2 p q)
      = entry X o w hn p (⟨256 * k.val + q.val, by have := trip_lt k; omega⟩ : Fin 1024) := by
  refine (Payload.chunk_apply w o hn _ p q).trans ?_
  unfold entry
  congr 1
  congr 1
  funext d
  congr 1
  refine Finset.sum_congr rfl fun j _ => ?_
  congr 1
  show X ((Rect.unit (s := S8x1024x256) (k0_off1 k) S8x256x256.size inb).toLoadRect.idx (ix3 p q j)) = _
  rw [load_idx]

set_option maxHeartbeats 1000000 in
/-- ONE TRIP'S PIECE LIST, opened here once and cited from then on: one store, at the trip's columns, of the chunk's
    arithmetic over the load at the trip's samples. -/
theorem tripL_eq {F : FTy → Type} [FloatOps F] (𝒱 : Variants) (c : Dev nD) (bd : Option 𝒱.V) (i : grid0.Coords) (arg1 : Memref sig .tc .vmem S8x1024x256 .bf16) (harg1 : arg1.IsWhole) (arg2 : Memref sig .tc .vmem S8x256 .f32) (harg2 : arg2.IsWhole) (arg3 : Memref sig .tc .vmem S256x256 .bf16) (harg3 : arg3.IsWhole) (arg4 : Memref sig .tc .vmem S8x256 .f32) (harg4 : arg4.IsWhole) (arg5 : Memref sig .tc .vmem S8x1024 .f32) (harg5 : arg5.IsWhole)
    (v0 : Vec F S256x256 .bf16) (v2 v5 : Vec F S8x256 .f32) (X : BufTy.Contents (Elt F) arg1.view.ty) (k : Fin k0_t1_loop.trips) :
    tripL_k0_t1 (F := F) 𝒱 c bd i arg1 harg1 arg2 harg2 arg3 harg3 arg4 harg4 arg5 harg5 v0 v2 v5 X k
      = [(⟨Rect.unit (s := S8x1024) (k0_off2 k) S8x256.size (k0_off2_inb k),
          k0_pay1 v0 v2 v5 (View.readAt (Elt F) arg1.view (Rect.unit (s := S8x1024x256) (k0_off1 k) S8x256x256.size (k0_off1_inb k)).toLoadRect X)⟩ : View.Piece (Elt F) S8x1024 .f32)] := by
  unfold tripL_k0_t1 trip_k0_t1
  rfl

/-- One trip's piece is a chunk of the block function. -/
theorem trip_pieces (𝒱 : Variants) (c : Dev nD) (bd : Option 𝒱.V) (i : grid0.Coords) (arg1 : Memref sig .tc .vmem S8x1024x256 .bf16) (harg1 : arg1.IsWhole) (arg2 : Memref sig .tc .vmem S8x256 .f32) (harg2 : arg2.IsWhole) (arg3 : Memref sig .tc .vmem S256x256 .bf16) (harg3 : arg3.IsWhole) (arg4 : Memref sig .tc .vmem S8x256 .f32) (harg4 : arg4.IsWhole) (arg5 : Memref sig .tc .vmem S8x1024 .f32) (harg5 : arg5.IsWhole)
    (w : FVec Ideal S256x256 .bf16) (o hn : FVec Ideal S8x256 .f32) (X : BufTy.Contents (Elt Ideal) arg1.view.ty) (k : Fin k0_t1_loop.trips) :
    ∀ pc ∈ tripL_k0_t1 (F := Ideal) 𝒱 c bd i arg1 harg1 arg2 harg2 arg3 harg3 arg4 harg4 arg5 harg5 w o hn X k,
      ∀ x : pc.1.shape.Idx, pc.2 x = blockFn (arg1.view.read (Elt Ideal) X) o w hn (pc.1.emb x) := by
  intro pc hpc
  rw [tripL_eq] at hpc
  obtain rfl := List.mem_singleton.mp hpc
  intro x
  obtain ⟨p, q, rfl⟩ : ∃ (p : Fin 8) (q : Fin 256), x = ix2 p q := ⟨x 0, x 1, eq_ix2 x⟩
  show k0_pay1 (F := Ideal) w o hn (View.readAt (Elt Ideal) arg1.view (Rect.unit (s := S8x1024x256) (k0_off1 k) S8x256x256.size (k0_off1_inb k)).toLoadRect X) (ix2 p q)
    = blockFn (arg1.view.read (Elt Ideal) X) o w hn ((Rect.unit (s := S8x1024) (k0_off2 k) S8x256.size (k0_off2_inb k)).emb (ix2 p q))
  rw [View.readAt_eq_ld, store_emb]
  exact chunk_entry _ w o hn k _ p q

/-- Every piece of the trips before n is a chunk of the block function. -/
theorem trips_pieces (𝒱 : Variants) (c : Dev nD) (bd : Option 𝒱.V) (i : grid0.Coords) (arg1 : Memref sig .tc .vmem S8x1024x256 .bf16) (harg1 : arg1.IsWhole) (arg2 : Memref sig .tc .vmem S8x256 .f32) (harg2 : arg2.IsWhole) (arg3 : Memref sig .tc .vmem S256x256 .bf16) (harg3 : arg3.IsWhole) (arg4 : Memref sig .tc .vmem S8x256 .f32) (harg4 : arg4.IsWhole) (arg5 : Memref sig .tc .vmem S8x1024 .f32) (harg5 : arg5.IsWhole)
    (w : FVec Ideal S256x256 .bf16) (o hn : FVec Ideal S8x256 .f32) (X : BufTy.Contents (Elt Ideal) arg1.view.ty) :
    ∀ n : ℕ, ∀ pc ∈ pb_k0_t1 (F := Ideal) 𝒱 c bd i arg1 harg1 arg2 harg2 arg3 harg3 arg4 harg4 arg5 harg5 w o hn X n,
      ∀ x : pc.1.shape.Idx, pc.2 x = blockFn (arg1.view.read (Elt Ideal) X) o w hn (pc.1.emb x)
  | 0 => by
    intro pc hpc
    rw [pb_k0_t1.eq_1] at hpc
    exact absurd hpc List.not_mem_nil
  | n + 1 => by
    intro pc hpc
    rw [pb_k0_t1.eq_2] at hpc
    unfold pb_k0_t1Step at hpc
    by_cases hn' : n < k0_t1_loop.trips
    · rw [dif_pos hn'] at hpc
      rcases List.mem_append.mp hpc with h | h
      · exact trip_pieces 𝒱 c bd i arg1 harg1 arg2 harg2 arg3 harg3 arg4 harg4 arg5 harg5 w o hn X ⟨n, hn'⟩ pc h
      · exact trips_pieces 𝒱 c bd i arg1 harg1 arg2 harg2 arg3 harg3 arg4 harg4 arg5 harg5 w o hn X n pc h
    · rw [dif_neg hn'] at hpc
      exact trips_pieces 𝒱 c bd i arg1 harg1 arg2 harg2 arg3 harg3 arg4 harg4 arg5 harg5 w o hn X n pc hpc

set_option maxHeartbeats 1000000 in
/-- THE RUN'S PIECE LIST, opened here once: the pieces of the loop's trips, over the three blocks loaded whole before
    the loop and the tail block as the staging memref holds it. -/
theorem run_pieces_eq {F : FTy → Type} [FloatOps F] (c : Dev nD) (i : grid0.Coords) (arg1 : Memref sig .tc .vmem S8x1024x256 .bf16) (harg1 : arg1.IsWhole) (arg2 : Memref sig .tc .vmem S8x256 .f32) (harg2 : arg2.IsWhole) (arg3 : Memref sig .tc .vmem S256x256 .bf16) (harg3 : arg3.IsWhole) (arg4 : Memref sig .tc .vmem S8x256 .f32) (harg4 : arg4.IsWhole) (arg5 : Memref sig .tc .vmem S8x1024 .f32) (harg5 : arg5.IsWhole)
    (x0 : Vec F S8x1024x256 .bf16) (x1 : Vec F S8x256 .f32) (x2 : Vec F S256x256 .bf16) (x3 : Vec F S8x256 .f32) :
    (kernelRun0_A c i arg1 harg1 arg2 harg2 arg3 harg3 arg4 harg4 arg5 harg5 x0 x1 x2 x3).1
      = pb_k0_t1 Variants.none c none i arg1 harg1 arg2 harg2 arg3 harg3 arg4 harg4 arg5 harg5
          (View.readAt (Elt F) arg3.view (Rect.unit (s := S256x256) ![0, 0] S256x256.size inb_S256x256_S256x256_0_0).toLoadRect (harg3.unread x2))
          (View.readAt (Elt F) arg2.view (Rect.unit (s := S8x256) ![0, 0] S8x256.size inb_S8x256_S8x256_0_0).toLoadRect (harg2.unread x1))
          (View.readAt (Elt F) arg4.view (Rect.unit (s := S8x256) ![0, 0] S8x256.size inb_S8x256_S8x256_0_0).toLoadRect (harg4.unread x3))
          (harg1.unread x0) k0_t1_loop.trips := by
  unfold kernelRun0_A
  rfl

/-- THE BLOCK THE BODY LEAVES, on any staging memrefs holding the input blocks t, o, w, hn: the block function. -/
theorem out_eq (c : Dev nD) (i : grid0.Coords) (arg1 : Memref sig .tc .vmem S8x1024x256 .bf16) (harg1 : arg1.IsWhole) (arg2 : Memref sig .tc .vmem S8x256 .f32) (harg2 : arg2.IsWhole) (arg3 : Memref sig .tc .vmem S256x256 .bf16) (harg3 : arg3.IsWhole) (arg4 : Memref sig .tc .vmem S8x256 .f32) (harg4 : arg4.IsWhole) (arg5 : Memref sig .tc .vmem S8x1024 .f32) (harg5 : arg5.IsWhole)
    (t : FVec Ideal S8x1024x256 .bf16) (o : FVec Ideal S8x256 .f32) (w : FVec Ideal S256x256 .bf16) (hn : FVec Ideal S8x256 .f32) :
    out0_A_4 (F := Ideal) c i arg1 harg1 arg2 harg2 arg3 harg3 arg4 harg4 arg5 harg5 t o w hn = blockFn t o w hn := by
  funext y
  unfold out0_A_4
  refine View.read_writes_apply_of_pieces VO0_4 _ (blockFn t o w hn) _ ?_ y (cover0_A_4 (F := Ideal) c i arg1 harg1 arg2 harg2 arg3 harg3 arg4 harg4 arg5 harg5 t o w hn y)
  show ∀ pc ∈ (kernelRun0_A (F := Ideal) c i arg1 harg1 arg2 harg2 arg3 harg3 arg4 harg4 arg5 harg5 t o w hn).1, _
  rw [run_pieces_eq]
  have hw : View.readAt (Elt Ideal) arg3.view (Rect.unit (s := S256x256) ![0, 0] S256x256.size inb_S256x256_S256x256_0_0).toLoadRect (harg3.unread w) = w := by
    rw [View.readAt_eq_ld, harg3.read_unread, View.ld_unit_zero (S := S256x256) (by funext a; fin_cases a <;> rfl)]
  have ho : View.readAt (Elt Ideal) arg2.view (Rect.unit (s := S8x256) ![0, 0] S8x256.size inb_S8x256_S8x256_0_0).toLoadRect (harg2.unread o) = o := by
    rw [View.readAt_eq_ld, harg2.read_unread, View.ld_unit_zero (S := S8x256) (by funext a; fin_cases a <;> rfl)]
  have hh : View.readAt (Elt Ideal) arg4.view (Rect.unit (s := S8x256) ![0, 0] S8x256.size inb_S8x256_S8x256_0_0).toLoadRect (harg4.unread hn) = hn := by
    rw [View.readAt_eq_ld, harg4.read_unread, View.ld_unit_zero (S := S8x256) (by funext a; fin_cases a <;> rfl)]
  intro pc hpc
  have := trips_pieces Variants.none c none i arg1 harg1 arg2 harg2 arg3 harg3 arg4 harg4 arg5 harg5 _ _ _ (harg1.unread t) _ pc hpc
  rw [harg1.read_unread, hw, ho, hh] at this
  exact this

end Cert.KernelIdeal.Block

end
-- ==== Proof.WholeArray.lean ====
/-
  From blocks to the whole result array.

  Grid point t handles batch rows 8 t … 8 t + 7: it reads rows 8 t + p of the tail array, of the offset array and of
  the normalised head array, the whole transposed weight, and writes rows 8 t + p of the result. The body leaves in
  its block the score function of the blocks it was given (Block.lean), so what point t writes back is block t of ONE
  function of the four arrays the region reads; the 32 blocks tile the 256 rows, so the result array is that function.
-/
import proofs.«400054_j32933809226069_3_alg».proof.Proof.Gen.KernelIdeal.Value
import proofs.«400054_j32933809226069_3_alg».proof.Proof.Block

set_option maxRecDepth 16384

noncomputable section

open scoped BigOperators

namespace Cert.KernelIdeal.Whole

open Cert.KernelIdeal Cert.KernelIdeal.Gen Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- Entry (b, n) of the result as a function of the four arrays the region reads: the tail rows T [256, 1024, 256], the
    per-row offset O [256, 256], the transposed left half of the weight Wt [256, 256], the normalised head Hn [256, 256]. -/
def wholeFn (T : FVec Ideal S256x1024x256 .bf16) (O : FVec Ideal S256x256 .f32) (Wt : FVec Ideal S256x256 .bf16) (Hn : FVec Ideal S256x256 .f32) :
    S256x1024.Idx → EReal :=
  fun i => Score.score (fun d => Hn (ix2 (i 0) d))
    (Score.unit (fun d => (∑ k : Fin 256, T (ix3 (i 0) (i 1) k) * Wt (ix2 k d)) + O (ix2 (i 0) d)))

/-- The block indices of the five windows at grid point t, decided over the 32 points: the row-blocked windows are at
    block t, the weight at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Block t of the whole-array function, read through the result's window, is the block function of blocks t of the
    four arrays, read through their windows: rows 8 t + p of the row-blocked arrays, the whole weight. -/
theorem block_of_whole (T : FVec Ideal S256x1024x256 .bf16) (O : FVec Ideal S256x256 .f32) (Wt : FVec Ideal S256x256 .bf16) (Hn : FVec Ideal S256x256 .f32)
    (t : Fin cfg0.N) (j : S8x1024.Idx) :
    Block.blockFn (fun y => T (((cfg0.win 0).blk t).view.emb y)) (fun y => O (((cfg0.win 1).blk t).view.emb y))
        (fun y => Wt (((cfg0.win 2).blk t).view.emb y)) (fun y => Hn (((cfg0.win 3).blk t).view.emb y)) j
      = wholeFn T O Wt Hn (((cfg0.win 4).blk t).view.emb j) := by
  obtain ⟨a0, a1, a2, b0, b1, c0, c1, d0, d1, e0, e1⟩ := idx_facts t
  have hj0 : (j 0).val < 8 := (j 0).isLt
  have hj1 : (j 1).val < 1024 := (j 1).isLt
  unfold Block.blockFn Block.entry wholeFn
  refine congrArg₂ Score.score (funext fun d => ?_) (congrArg Score.unit (funext fun d => ?_))
  · show Hn (((cfg0.win 3).blk t).view.emb (ix2 (j 0) d)) = Hn (ix2 ((((cfg0.win 4).blk t).view.emb j) 0) d)
    refine congrArg Hn (funext fun a => Fin.ext ?_)
    match a with
    | ⟨0, _⟩ => show win0_3.index t (0 : Fin 2) * 8 + 1 * (j 0).val = win0_4.index t (0 : Fin 2) * 8 + 1 * (j 0).val; omega
    | ⟨1, _⟩ => show win0_3.index t (1 : Fin 2) * 256 + 1 * d.val = d.val; omega
  · refine congrArg₂ (· + ·) (Finset.sum_congr rfl fun k _ => congrArg₂ (· * ·) ?_ ?_) ?_
    · show T (((cfg0.win 0).blk t).view.emb (ix3 (j 0) (j 1) k))
        = T (ix3 ((((cfg0.win 4).blk t).view.emb j) 0) ((((cfg0.win 4).blk t).view.emb j) 1) k)
      refine congrArg T (funext fun a => Fin.ext ?_)
      match a with
      | ⟨0, _⟩ => show win0_0.index t (0 : Fin 3) * 8 + 1 * (j 0).val = win0_4.index t (0 : Fin 2) * 8 + 1 * (j 0).val; omega
      | ⟨1, _⟩ => show win0_0.index t (1 : Fin 3) * 1024 + 1 * (j 1).val = win0_4.index t (1 : Fin 2) * 1024 + 1 * (j 1).val; omega
      | ⟨2, _⟩ => show win0_0.index t (2 : Fin 3) * 256 + 1 * k.val = k.val; omega
    · show Wt (((cfg0.win 2).blk t).view.emb (ix2 k d)) = Wt (ix2 k d)
      refine congrArg Wt (funext fun a => Fin.ext ?_)
      match a with
      | ⟨0, _⟩ => show win0_2.index t (0 : Fin 2) * 256 + 1 * k.val = k.val; omega
      | ⟨1, _⟩ => show win0_2.index t (1 : Fin 2) * 256 + 1 * d.val = d.val; omega
    · show O (((cfg0.win 1).blk t).view.emb (ix2 (j 0) d)) = O (ix2 ((((cfg0.win 4).blk t).view.emb j) 0) d)
      refine congrArg O (funext fun a => Fin.ext ?_)
      match a with
      | ⟨0, _⟩ => show win0_1.index t (0 : Fin 2) * 8 + 1 * (j 0).val = win0_4.index t (0 : Fin 2) * 8 + 1 * (j 0).val; omega
      | ⟨1, _⟩ => show win0_1.index t (1 : Fin 2) * 256 + 1 * d.val = d.val; omega

/-- WHAT POINT t WRITES BACK is block t of the whole-array function of the arrays as the region finds them. -/
theorem flushed_eq (c : Dev nD) (t : Fin cfg0.N) :
    (dats m 0 c).flushed 4 t
      = ((cfg0.win 4).blk t).view.read (Elt Ideal) (wholeFn (V m c main_v15) (V m c main_v46) (V m c main_v47) (V m c main_v42)) := by
  rw [Cert.KernelIdeal.Value.flushed4_A, Block.out_eq]
  funext j
  exact block_of_whole (V m c main_v15) (V m c main_v46) (V m c main_v47) (V m c main_v42) t j

/-- An index of the result array is in point t's block iff each coordinate is in the block's range on its axis. -/
theorem mem_blk (t : Fin cfg0.N) (i : S256x1024.Idx) :
    i ∈ ((cfg0.win 4).blk t).view.set ↔ ∀ a : Fin 2, win0_4.index t a * S8x1024.size a ≤ (i a).val ∧ (i a).val < win0_4.index t a * S8x1024.size a + S8x1024.size a := by
  show i ∈ ((View.whole main_v48).slice (win0_4.rect t)).set ↔ _
  rw [View.set_slice_whole, Rect.mem_set_unit]
  exact Iff.rfl

/-- Every index of the result array is in the block of the point that handles its batch row: row b is point b / 8's. -/
theorem cover (i : S256x1024.Idx) : ∃ t : Fin cfg0.N, (cfg0.win 4).flush t = true ∧ i ∈ ((cfg0.win 4).blk t).view.set := by
  have hi0 : (i 0).val < 256 := (i 0).isLt
  have hi1 : (i 1).val < 1024 := (i 1).isLt
  have hN : cfg0.N = 32 := N_0
  have ht : (i 0).val / 8 < cfg0.N := by rw [hN]; omega
  refine ⟨⟨(i 0).val / 8, ht⟩, flush0_4 _, ?_⟩
  rw [mem_blk]
  obtain ⟨a0, a1, a2, b0, b1, c0, c1, d0, d1, e0, e1⟩ := idx_facts ⟨(i 0).val / 8, ht⟩
  have e0' : win0_4.index ⟨(i 0).val / 8, ht⟩ (0 : Fin 2) = (i 0).val / 8 := e0
  intro a
  match a with
  | ⟨0, _⟩ =>
    show win0_4.index ⟨(i 0).val / 8, ht⟩ (0 : Fin 2) * 8 ≤ (i 0).val ∧ (i 0).val < win0_4.index ⟨(i 0).val / 8, ht⟩ (0 : Fin 2) * 8 + 8
    omega
  | ⟨1, _⟩ =>
    show win0_4.index ⟨(i 0).val / 8, ht⟩ (1 : Fin 2) * 1024 ≤ (i 1).val ∧ (i 1).val < win0_4.index ⟨(i 0).val / 8, ht⟩ (1 : Fin 2) * 1024 + 1024
    omega

/-- THE RESULT ARRAY after the run: the whole-array function of the arrays the region reads. -/
theorem final (c : Dev nD) :
    (dats m 0 c).arrAt 4 cfg0.N = wholeFn (V m c main_v15) (V m c main_v46) (V m c main_v47) (V m c main_v42) :=
  (dats m 0 c).arrAt_eq_of_cover 4 _ (fun t _ => flushed_eq m c t) cover

/-- The kernel's run with its result named, the arguments unchanged. -/
theorem run : θ_run defs (onTc (τ := τ) (main (F := Ideal))) ⟨m, fun _ => 0, ρ⟩ fun r => ∀ c : Dev nD,
      r.2.mem ((c : Thread nD τ).loc main_v48) = wholeFn (V m c main_v15) (V m c main_v46) (V m c main_v47) (V m c main_v42)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Whole

end
-- ==== Proof.HostSide.lean ====
/-
  The four arrays the kernel region reads, as @main's host operations make them from the arguments.

  • the tail rows: the entity table taken at the (wrapped) tail indices, narrowed to bf16 — at the ideal values the rows
    themselves;
  • the weight's left half transposed, narrowed to bf16: entry (k, d) is W[d, k];
  • the per-row offset: the right half of the relation row times the weight's right half, plus the bias:
    entry (b, d) is Σ_k R[b, 256 + k] · W[d, 256 + k] + β[d];
  • the normalised head: the head's entity row and the left half of its relation row through the affine map by halves,
    divided by its floored Euclidean length.
  A Python index i < 0 is wrapped to i + N before each take; the takes themselves are left as they are printed.
-/
import proofs.«400054_j32933809226069_3_alg».proof.Proof.Gen.KernelIdeal.Frame
import proofs.«400054_j32933809226069_3_alg».proof.Proof.Score
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HostSide

open Cert.KernelIdeal Cert.KernelIdeal.Gen Idealize.ShloMosaic Idealize.ShloMosaic.TcCoe Idealize.ShloMosaic.ValueIdx
open Idealize.ShloMosaic.StableHlo Idealize.SL.Sem

/-- Integer and float arrays of a shape, at the ideal values. -/
abbrev I32 (s : Shape) : Type := IVec s 32
abbrev F32 (s : Shape) : Type := FVec Ideal s .f32

/-! ## The stages, as terms of the arguments -/

/-- Python's wrap of a negative index: i < 0 ? i + N : i, elementwise. -/
def wrap (s : Shape) (hb : S_.BroadcastsInDim s (![] : Fin 0 → Fin s.rank)) (N : BitVec 32) (z : I32 s) : I32 s :=
  select (cmpi .slt z (broadcastInDim s ![] hb (constantI S_ 32 0#32))) (addi z (broadcastInDim s ![] hb (constantI S_ 32 N))) z

/-- The head's entity rows [256, 256]. -/
def headRows (x0 : I32 S256x1) (x3 : F32 S200000x256) : F32 S256x256 :=
  Host.gather gather_S200000x256_S256x1_S256x256_1_0_n_n_0_1_1256 x3
    (broadcastInDim S256x1 ![0] bcast_S256_S256x1_0 (wrap S256 bcast_S_S256 200000#32 (shapeCast S256 x0 shapeCasts_S256x1_S256)))

/-- The tails' entity rows [256, 1024, 256]. -/
def tailRows (x1 : I32 S256x1024) (x3 : F32 S200000x256) : F32 S256x1024x256 :=
  Host.gather gather_S200000x256_S256x1024x1_S256x1024x256_2_0_n_n_0_2_1256 x3
    (broadcastInDim S256x1024x1 ![0, 1] bcast_S256x1024_S256x1024x1_0_1 (wrap S256x1024 bcast_S_S256x1024 200000#32 x1))

/-- The relation rows [256, 512]. -/
def relRows (x2 : I32 S256) (x4 : F32 S500x512) : F32 S256x512 :=
  Host.gather gather_S500x512_S256x1_S256x512_1_0_n_n_0_1_1512 x4
    (broadcastInDim S256x1 ![0] bcast_S256_S256x1_0 (wrap S256 bcast_S_S256 500#32 x2))

/-- The weight's left and right halves, transposed. -/
def wLeftT (x5 : F32 S256x512) : F32 S256x256 :=
  transpose S256x256 [1, 0] (extractStridedSlice S256x256 ![0, 0] x5 slices_S256x512_S256x256_0_0) transposes_S256x256_S256x256_1_0
def wRightT (x5 : F32 S256x512) : F32 S256x256 :=
  transpose S256x256 [1, 0] (extractStridedSlice S256x256 ![0, 256] x5 slices_S256x512_S256x256_0_256) transposes_S256x256_S256x256_1_0

/-- The bias as rows. -/
def biasRows (x6 : F32 S256) : F32 S256x256 :=
  broadcastInDim S256x256 ![0, 1] bcast_S1x256_S256x256_0_1 (broadcastInDim S1x256 ![1] bcast_S256_S1x256_1 x6)

/-- The head through the affine map, by halves. -/
def headFc (x0 : I32 S256x1) (x2 : I32 S256) (x3 : F32 S200000x256) (x4 : F32 S500x512) (x5 : F32 S256x512) (x6 : F32 S256) : F32 S256x256 :=
  addf (addf (Host.dotGeneral dot_S256x256_S256x256_S256x256_1_0_0_1_n_n none (headRows x0 x3) (wLeftT x5))
      (Host.dotGeneral dot_S256x256_S256x256_S256x256_1_0_0_1_n_n none
        (extractStridedSlice S256x256 ![0, 0] (relRows x2 x4) slices_S256x512_S256x256_0_0) (wRightT x5)))
    (biasRows x6)

/-- An array [256, 256] divided by the floored Euclidean length of each row, the host's way. -/
def rowUnit (y : F32 S256x256) : F32 S256x256 :=
  Host.divf y (broadcastInDim S256x256 ![0, 1] bcast_S256x1_S256x256_0_1
    (maximumf (Host.sqrt (broadcastInDim S256x1 ![0] bcast_S256_S256x1_0
        (Host.reduceAdd (mulf y y) (constant (F := Ideal) S_ .f32 0x00000000#32) reducesTo_S256x256_S256_d1 h_S_)))
      (broadcastInDim S256x1 ![] bcast_S_S256x1 (constant (F := Ideal) S_ .f32 0x2B8CBCCC#32))))

/-- The tail's per-row offset. -/
def tailOffset (x2 : I32 S256) (x4 : F32 S500x512) (x5 : F32 S256x512) (x6 : F32 S256) : F32 S256x256 :=
  addf (Host.dotGeneral dot_S256x256_S256x256_S256x256_1_0_0_1_n_n none
      (extractStridedSlice S256x256 ![0, 256] (relRows x2 x4) slices_S256x512_S256x256_0_256) (wRightT x5))
    (biasRows x6)

/-! ## The region's arrays are those terms of the launch contents -/

variable (m : (ℓ : Loc nD τ sig) → Buf (Elt Ideal) ℓ)

set_option maxHeartbeats 4000000 in
theorem V_tail (c : Dev nD) :
    (V m c main_v15 : S256x1024x256.Idx → EReal)
      = truncf .bf16 (tailRows (m ((c : Thread nD τ).loc main_arg1)) (m ((c : Thread nD τ).loc main_arg3))) bitsLt_bf16_f32 := by
  dsimp only [V, hostOps0]
  after_results_simp
  all_goals rfl

set_option maxHeartbeats 4000000 in
theorem V_weight (c : Dev nD) :
    (V m c main_v47 : S256x256.Idx → EReal) = truncf .bf16 (wLeftT (m ((c : Thread nD τ).loc main_arg5))) bitsLt_bf16_f32 := by
  dsimp only [V, hostOps0]
  after_results_simp
  all_goals rfl

set_option maxHeartbeats 4000000 in
theorem V_offset (c : Dev nD) :
    (V m c main_v46 : S256x256.Idx → EReal)
      = tailOffset (m ((c : Thread nD τ).loc main_arg2)) (m ((c : Thread nD τ).loc main_arg4)) (m ((c : Thread nD τ).loc main_arg5)) (m ((c : Thread nD τ).loc main_arg6)) := by
  dsimp only [V, hostOps0]
  after_results_simp
  all_goals rfl

set_option maxHeartbeats 4000000 in
theorem V_head (c : Dev nD) :
    (V m c main_v42 : S256x256.Idx → EReal)
      = rowUnit (headFc (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))) := by
  dsimp only [V, hostOps0]
  after_results_simp
  all_goals rfl

end Cert.KernelIdeal.HostSide

end
-- ==== Proof.LibRows.lean ====
/-
  General lemmas: jnp's row take `x[idx, :]` and row accumulation `zeros.at[idx].add(u)` read at an index.

  `Host.gather` with offset_dims [1], collapsed_slice_dims [0], start_index_map [0], index_vector_dim 1 and
  slice sizes [1, C], over an operand [N, C] and start indices [K, 1], reads at (k, c) the operand's row
  idx[k, 0] (read signed, clamped into [0, N − 1]) at column c.
  The host's float scatter with an add body at the ideal values (`Ideal.hostScatterAdd`), with
  inserted_window_dims [0], scatter_dims_to_operand_dims [0], index_vector_dim 1 over indices [K, 1]:
  into a vector [N] from updates [K] (no window axis), and into an array [N, C] from updates [K, C]
  (update_window_dims [1]): entry i (resp. (i, c)) is the operand's plus the sum of the updates k
  (resp. (k, c)) whose index word idx[k, 0], read signed, is i.
-/
import Idealize.ShloMosaic.PureOps.Ideal
import Idealize.ShloMosaic.Lib.ValueIdx
import Idealize.ShloMosaic.Lib.ValueIdxRank1

noncomputable section

open scoped BigOperators

namespace Cert.Lib.Rows

open Idealize.ShloMosaic Idealize.ShloMosaic.ValueIdx

/-- The dimension numbers of a row take: operand [N, C], start indices [K, 1], result [K, C]. -/
abbrev gatherDims (N C K : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- THE ROW TAKE READ AT (k, c): the operand at row idx[k, 0], read signed and clamped into [0, N − 1], column c. -/
theorem gather_rows_apply {α : Type} {N C K w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (c : Fin C) :
    Host.gather (gatherDims N C K wf) x idx (ix2 k c)
      = x (ix2 ⟨min (idx (ix2 k (0 : Fin 1))).toInt.toNat (N - 1), by omega⟩ c) := by
  unfold Host.gather
  congr 1
  funext a
  refine Fin.ext ?_
  match a with
  | ⟨0, _⟩ =>
    -- the collapsed axis: the clamped start index, no batching and no offset coordinate
    show (gatherDims N C K wf).start (ix2 k c) idx 0 + (gatherDims N C K wf).batchCoord (ix2 k c) 0
      + (gatherDims N C K wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N C K wf).startIndexMap from List.mem_singleton.mpr rfl)]
    have hsi : (gatherDims N C K wf).siIdx (ix2 k c) ⟨List.idxOf (0 : Fin 2) (gatherDims N C K wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    -- the offset axis: start 0, no batching coordinate, the result's column
    show (gatherDims N C K wf).start (ix2 k c) idx 1 + (gatherDims N C K wf).batchCoord (ix2 k c) 1
      + (gatherDims N C K wf).offCoord (ix2 k c) 1 = c.val
    rw [GatherDims.batchCoord_eq_zero _ _ _ List.not_mem_nil]
    have hst : (gatherDims N C K wf).start (ix2 k c) idx 1 = 0 := by
      unfold GatherDims.start
      rw [dif_neg (show (1 : Fin 2) ∉ (gatherDims N C K wf).startIndexMap from by
        intro h; exact Nat.one_ne_zero (congrArg Fin.val (List.mem_singleton.mp h)))]
    have hoff : (gatherDims N C K wf).offCoord (ix2 k c) 1 = c.val := by
      unfold GatherDims.offCoord
      rw [dif_pos (show (1 : Fin 2) ∈ (gatherDims N C K wf).sKept from
        (GatherDims.mem_sKept _ _).mpr ⟨fun h => Nat.one_ne_zero (congrArg Fin.val (List.mem_singleton.mp h)), List.not_mem_nil⟩)]
      rfl
    rw [hst, hoff]; simp

/-- An update lands at `i` exactly when, on every axis, its start plus its window coordinate is `i`'s coordinate,
    as integers (which forces the landing index into range on that axis). -/
private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  constructor
  · intro h a
    split at h
    · rename_i hr
      have hv : (d.start j idx a + (d.window j a : Int)).toNat = (i a).val :=
        congrArg Fin.val (congrFun (Option.some.inj h) a)
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    show (d.start j idx a + (d.window j a : Int)).toNat = (i a).val
    have := h a
    omega

/-- A sum over a rank-1 index set is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulation into a vector [N] from updates [K] at indices [K, 1]. -/
abbrev scatterVecDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- On the vector's one axis the start of update k is its index word idx[k, 0], read signed. -/
private theorem vec_start {N K w : Nat}
    (wf : ScatterDims.WF ⟨1, ![N]⟩ ⟨2, ![K, 1]⟩ ⟨1, ![K]⟩ [] [0] [0] 1)
    (idx : IVec ⟨2, ![K, 1]⟩ w) (k : Fin K) :
    (scatterVecDims N K wf).start (ix1 k) idx (0 : Fin 1) = (idx (ix2 k (0 : Fin 1))).toInt := by
  unfold ScatterDims.start
  rw [dif_pos (show (0 : Fin 1) ∈ (scatterVecDims N K wf).scatterDimsToOperandDims from List.mem_singleton.mpr rfl)]
  have hsi : (scatterVecDims N K wf).siIdx (ix1 k)
      ⟨List.idxOf (0 : Fin 1) (scatterVecDims N K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The vector's one axis is an inserted window axis: no window coordinate. -/
private theorem vec_window {N K : Nat}
    (wf : ScatterDims.WF ⟨1, ![N]⟩ ⟨2, ![K, 1]⟩ ⟨1, ![K]⟩ [] [0] [0] 1) (k : Fin K) :
    (scatterVecDims N K wf).window (ix1 k) (0 : Fin 1) = 0 := rfl

/-- Update k lands at entry i exactly when its index word, read signed, is i. -/
private theorem vec_resultIdx? {N K w : Nat}
    (wf : ScatterDims.WF ⟨1, ![N]⟩ ⟨2, ![K, 1]⟩ ⟨1, ![K]⟩ [] [0] [0] 1)
    (idx : IVec ⟨2, ![K, 1]⟩ w) (k : Fin K) (i : Fin N) :
    (scatterVecDims N K wf).resultIdx? (ix1 k) idx = some (ix1 i)
      ↔ (idx (ix2 k (0 : Fin 1))).toInt = (i.val : Int) := by
  rw [resultIdx?_eq_some_iff]
  constructor
  · intro h
    have h0 := h (0 : Fin 1)
    rw [vec_start, vec_window] at h0
    simpa using h0
  · intro h a
    obtain rfl : a = (0 : Fin 1) := Subsingleton.elim _ _
    rw [vec_start, vec_window]
    simpa using h

/-- Entry i of the accumulated vector: the operand's plus the updates whose index word is i. -/
theorem hostScatterAdd_vec_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal) (i : Fin N) :
    Ideal.hostScatterAdd (scatterVecDims N K wf) x idx upd (ix1 i)
      = x (ix1 i) + ∑ k : Fin K, if (idx (ix2 k (0 : Fin 1))).toInt = (i.val : Int) then upd (ix1 k) else 0 := by
  unfold Ideal.hostScatterAdd
  refine congrArg (x (ix1 i) + ·) ?_
  rw [Finset.sum_filter, sum_idx1]
  refine Finset.sum_congr rfl fun k _ => ?_
  exact if_congr (vec_resultIdx? wf idx k i) rfl rfl

/-- The dimension numbers of an accumulation of rows into [N, C] from updates [K, C] at indices [K, 1]. -/
abbrev scatterRowsDims (N C K : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

/-- On the row axis the start of update (k, c') is its index word idx[k, 0], read signed. -/
private theorem rows_start0 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (0 : Fin 2) = (idx (ix2 k (0 : Fin 1))).toInt := by
  unfold ScatterDims.start
  rw [dif_pos (show (0 : Fin 2) ∈ (scatterRowsDims N C K wf).scatterDimsToOperandDims from List.mem_singleton.mpr rfl)]
  have hsi : (scatterRowsDims N C K wf).siIdx (ix2 k c')
      ⟨List.idxOf (0 : Fin 2) (scatterRowsDims N C K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The column axis is not named by the index map: its start is 0. -/
private theorem rows_start1 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (1 : Fin 2) = 0 := by
  unfold ScatterDims.start
  rw [dif_neg (show (1 : Fin 2) ∉ (scatterRowsDims N C K wf).scatterDimsToOperandDims from fun h =>
    Nat.one_ne_zero (congrArg Fin.val (List.mem_singleton.mp h)))]

/-- The row axis is an inserted window axis: no window coordinate. -/
private theorem rows_window0 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (0 : Fin 2) = 0 := rfl

/-- The column axis carries the update's window axis: the window coordinate is the update's column. -/
private theorem rows_window1 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (1 : Fin 2) = c'.val := rfl

/-- Update (k, c') lands at entry (i, c) exactly when its index word, read signed, is i and its column is c. -/
private theorem rows_resultIdx? {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) (i : Fin N) (c : Fin C) :
    (scatterRowsDims N C K wf).resultIdx? (ix2 k c') idx = some (ix2 i c)
      ↔ (idx (ix2 k (0 : Fin 1))).toInt = (i.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    have h0' : (idx (ix2 k (0 : Fin 1))).toInt + ((0 : Nat) : Int) = (i.val : Int) := h0
    have h1' : (0 : Int) + (c'.val : Int) = (c.val : Int) := h1
    exact ⟨by omega, Fin.ext (by omega)⟩
  · rintro ⟨h, rfl⟩ a
    match a with
    | ⟨0, _⟩ =>
      show (scatterRowsDims N C K wf).start (ix2 k c') idx (0 : Fin 2)
        + ((scatterRowsDims N C K wf).window (ix2 k c') (0 : Fin 2) : Int) = (i.val : Int)
      rw [rows_start0, rows_window0]
      omega
    | ⟨1, _⟩ =>
      show (scatterRowsDims N C K wf).start (ix2 k c') idx (1 : Fin 2)
        + ((scatterRowsDims N C K wf).window (ix2 k c') (1 : Fin 2) : Int) = (c'.val : Int)
      rw [rows_start1, rows_window1]
      omega

/-- Entry (i, c) of the accumulated array: the operand's plus the updates (k, c) whose index word is i. -/
theorem hostScatterAdd_rows_apply {N C K w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (c : Fin C) :
    Ideal.hostScatterAdd (scatterRowsDims N C K wf) x idx upd (ix2 i c)
      = x (ix2 i c) + ∑ k : Fin K, if (idx (ix2 k (0 : Fin 1))).toInt = (i.val : Int) then upd (ix2 k c) else 0 := by
  unfold Ideal.hostScatterAdd
  refine congrArg (x (ix2 i c) + ·) ?_
  rw [Finset.sum_filter, sum_idx2]
  refine Finset.sum_congr rfl fun k _ => ?_
  simp only [rows_resultIdx?]
  by_cases h : (idx (ix2 k (0 : Fin 1))).toInt = (i.val : Int)
  · -- the row matches: of the columns only c' = c survives
    simp only [h, true_and, if_true]
    rw [Finset.sum_ite_eq' Finset.univ c (fun c' => upd (ix2 k c'))]
    simp
  · -- the row does not match: every term is 0
    simp only [h, false_and, if_false]
    exact Finset.sum_const_zero

end Cert.Lib.Rows

end
-- ==== Proof.Index.lean ====
/-
  A Python row index as a table row: a negative index i is first wrapped to i + N, and the take then clamps the
  (signed) result into 0 … N − 1.
-/
import Idealize.ShloMosaic.PureOps.Ideal

noncomputable section

namespace Cert.Index

open Idealize.ShloMosaic

/-- i < 0 ? i + N : i, on 32-bit words read signed. -/
def wrapWord (N z : BitVec 32) : BitVec 32 := Scalar.select (IntOp.cmpi .slt z 0#32) (IntOp.addi z N) z

/-- The table row a start-index word names: the word read signed, clamped into 0 … N − 1. -/
def row (N : Nat) (hN : 0 < N) (w : BitVec 32) : Fin N := ⟨min w.toInt.toNat (N - 1), by omega⟩

end Cert.Index

end
-- ==== Proof.HostRead.lean ====
/-
  The host-side stages read at an index: the transposed weight halves, the bias rows, a [256, 256] × [256, 256] product,
  the row normalisation, the head's entity rows through the row take, and from these the three float arrays the
  region reads.
-/
import proofs.«400054_j32933809226069_3_alg».proof.Proof.HostSide
import proofs.«400054_j32933809226069_3_alg».proof.Proof.LibRows
import proofs.«400054_j32933809226069_3_alg».proof.Proof.Index

noncomputable section

open scoped BigOperators

namespace Cert.KernelIdeal.HostSide

open Cert.KernelIdeal Cert.KernelIdeal.Gen Idealize.ShloMosaic Idealize.ShloMosaic.TcCoe Idealize.ShloMosaic.ValueIdx

/-- The wrap, elementwise. -/
theorem wrap_apply (s : Shape) (hb : S_.BroadcastsInDim s (![] : Fin 0 → Fin s.rank)) (N : BitVec 32) (z : I32 s) (i : s.Idx) :
    wrap s hb N z i = Index.wrapWord N (z i) := by
  unfold wrap Index.wrapWord
  show Scalar.select (IntOp.cmpi .slt (z i) (broadcastInDim s ![] hb (constantI S_ 32 0#32) i))
      (IntOp.addi (z i) (broadcastInDim s ![] hb (constantI S_ 32 N) i)) (z i) = _
  rw [broadcastInDim_apply _ hb (constantI S_ 32 0#32) i ix0 (fun a => a.elim0),
    broadcastInDim_apply _ hb (constantI S_ 32 N) i ix0 (fun a => a.elim0)]
  rfl

/-- Entry (k, d) of the transposed left half of the weight is W[d, k]; of the right half, W[d, 256 + k]. -/
theorem wLeftT_apply (x5 : F32 S256x512) (k d : Fin 256) : wLeftT x5 (ix2 k d) = x5 (ix2 d (Score.lo k)) := by
  unfold wLeftT
  refine (transpose_ix2_apply _ _ k d).trans ?_
  exact slice2_axis1_apply 0 x5 _ d k (Score.lo k) (by show k.val = 0 + k.val; omega)
theorem wRightT_apply (x5 : F32 S256x512) (k d : Fin 256) : wRightT x5 (ix2 k d) = x5 (ix2 d (Score.hi k)) := by
  unfold wRightT
  refine (transpose_ix2_apply _ _ k d).trans ?_
  exact slice2_axis1_apply 256 x5 _ d k (Score.hi k) rfl

/-- The bias rows at (b, d): β[d]. -/
theorem biasRows_apply (x6 : F32 S256) (b d : Fin 256) : biasRows x6 (ix2 b d) = x6 (ix1 d) := by
  unfold biasRows
  refine (broadcastInDim_apply _ bcast_S1x256_S256x256_0_1 _ (ix2 b d) (ix2 (0 : Fin 1) d) (fun a => ?_)).trans ?_
  · match a with
    | ⟨0, _⟩ => show 0 = if (1 : Nat) = 1 then 0 else b.val; rw [if_pos rfl]
    | ⟨1, _⟩ => show d.val = if (256 : Nat) = 1 then 0 else d.val; rw [if_neg (by decide)]
  · refine broadcastInDim_apply _ bcast_S256_S1x256_1 x6 (ix2 (0 : Fin 1) d) (ix1 d) (fun a => ?_)
    match a with
    | ⟨0, _⟩ => show d.val = if (256 : Nat) = 1 then 0 else d.val; rw [if_neg (by decide)]

/-- The left and right halves of a [256, 512] array's rows. -/
theorem leftHalf_apply (R : F32 S256x512) (b k : Fin 256) :
    extractStridedSlice S256x256 ![0, 0] R slices_S256x512_S256x256_0_0 (ix2 b k) = R (ix2 b (Score.lo k)) :=
  slice2_axis1_apply 0 R _ b k (Score.lo k) (by show k.val = 0 + k.val; omega)
theorem rightHalf_apply (R : F32 S256x512) (b k : Fin 256) :
    extractStridedSlice S256x256 ![0, 256] R slices_S256x512_S256x256_0_256 (ix2 b k) = R (ix2 b (Score.hi k)) :=
  slice2_axis1_apply 256 R _ b k (Score.hi k) rfl

/-- The operand indices of the square product, read off (left operand: row, then the contracted coordinate; right
    operand: the contracted coordinate, then column). -/
theorem lhs_sq_0 (i : S256x256.Idx) (k : dot_S256x256_S256x256_S256x256_1_0_0_1_n_n.contr.Idx) :
    (dot_S256x256_S256x256_S256x256_1_0_0_1_n_n.lhsIdx i k 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_sq_1 (i : S256x256.Idx) (k : dot_S256x256_S256x256_S256x256_1_0_0_1_n_n.contr.Idx) :
    (dot_S256x256_S256x256_S256x256_1_0_0_1_n_n.lhsIdx i k 1).val = (k ⟨0, by decide⟩).val :=
  dot_S256x256_S256x256_S256x256_1_0_0_1_n_n.lhsIdx_val_of_single rfl i k
theorem rhs_sq_0 (i : S256x256.Idx) (k : dot_S256x256_S256x256_S256x256_1_0_0_1_n_n.contr.Idx) :
    (dot_S256x256_S256x256_S256x256_1_0_0_1_n_n.rhsIdx i k 0).val = (k ⟨0, by decide⟩).val :=
  dot_S256x256_S256x256_S256x256_1_0_0_1_n_n.rhsIdx_val_of_single rfl i k
theorem rhs_sq_1 (i : S256x256.Idx) (k : dot_S256x256_S256x256_S256x256_1_0_0_1_n_n.contr.Idx) :
    (dot_S256x256_S256x256_S256x256_1_0_0_1_n_n.rhsIdx i k 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- The host's square product at (b, d): Σ_k l[b, k] · r[k, d]. -/
theorem square_apply (l r : FVec Ideal S256x256 .f32) (b d : Fin 256) :
    Host.dotGeneral dot_S256x256_S256x256_S256x256_1_0_0_1_n_n none l r (ix2 b d) = ∑ k : Fin 256, l (ix2 b k) * r (ix2 k d) := by
  simp only [Host.dotGeneral]
  rw [Ideal.dotGeneral_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 b d) ((contrEquiv1 dot_S256x256_S256x256_S256x256_1_0_0_1_n_n 256 rfl rfl).symm k) = ix2 b k := funext fun a => Fin.ext (by
    match a with
    | ⟨0, _⟩ => exact lhs_sq_0 _ _
    | ⟨1, _⟩ => exact (lhs_sq_1 _ _).trans hk)
  have er : dot_S256x256_S256x256_S256x256_1_0_0_1_n_n.rhsIdx (ix2 b d) ((contrEquiv1 dot_S256x256_S256x256_S256x256_1_0_0_1_n_n 256 rfl rfl).symm k) = ix2 k d := funext fun a => Fin.ext (by
    match a with
    | ⟨0, _⟩ => exact (rhs_sq_0 _ _).trans hk
    | ⟨1, _⟩ => exact rhs_sq_1 _ _)
  rw [el, er]

/-- The sum of a row's squares, the host's way (initial value 0). -/
theorem rowSquares_apply (y : FVec Ideal S256x256 .f32) (b : Fin 256) :
    Host.reduceAdd (mulf y y) (constant (F := Ideal) S_ .f32 0x00000000#32) reducesTo_S256x256_S256_d1 h_S_ (ix1 b)
      = ∑ k : Fin 256, y (ix2 b k) * y (ix2 b k) := by
  simp only [Host.reduceAdd, Ideal.hostReduceAdd_def]
  rw [Ideal.hostReduceAdd_single reducesTo_S256x256_S256_d1 (by decide)]
  show Ideal.ofBits .f32 0x00000000#32 + _ = _
  rw [Ideal.ofBits_zero_f32, zero_add]
  refine Finset.sum_congr rfl fun k _ => ?_
  show y _ * y _ = _
  have e : (Shape.Reduces.lift (s := S256x256) (t := S256) (a := 1) (by decide) (ix1 b) k) = ix2 b k :=
    funext fun a => Fin.ext (by match a with | ⟨0, _⟩ => rfl | ⟨1, _⟩ => rfl)
  rw [e]
  rfl

/-- The row normalisation at (b, d): the row's unit vector. -/
theorem rowUnit_apply (y : FVec Ideal S256x256 .f32) (b d : Fin 256) :
    rowUnit y (ix2 b d) = Score.unit (fun d' => y (ix2 b d')) d := by
  unfold rowUnit Score.unit Score.len
  show Ideal.div (y (ix2 b d)) _ = _
  refine congrArg (Ideal.div (y (ix2 b d))) ?_
  refine (broadcastInDim_apply _ bcast_S256x1_S256x256_0_1 _ (ix2 b d) (ix2 b (0 : Fin 1)) (fun a => ?_)).trans ?_
  · match a with
    | ⟨0, _⟩ => show b.val = if (256 : Nat) = 1 then 0 else b.val; rw [if_neg (by decide)]
    | ⟨1, _⟩ => show 0 = if (1 : Nat) = 1 then 0 else d.val; rw [if_pos rfl]
  · show max (Ideal.sqrt (_ : EReal)) (_ : EReal) = _
    refine congrArg₂ max (congrArg Ideal.sqrt ?_) ?_
    · refine (broadcastInDim_apply _ bcast_S256_S256x1_0 _ (ix2 b (0 : Fin 1)) (ix1 b) (fun a => ?_)).trans (rowSquares_apply y b)
      match a with
      | ⟨0, _⟩ => show b.val = if (256 : Nat) = 1 then 0 else b.val; rw [if_neg (by decide)]
    · exact broadcastInDim_apply _ bcast_S_S256x1 _ (ix2 b (0 : Fin 1)) ix0 (fun a => a.elim0)

variable (x0 : I32 S256x1) (x1 : I32 S256x1024) (x2 : I32 S256) (x3 : F32 S200000x256) (x4 : F32 S500x512) (x5 : F32 S256x512) (x6 : F32 S256)

/-- The head's entity rows at (b, k): the table's row named by the wrapped head index, column k. -/
theorem headRows_apply (b k : Fin 256) :
    headRows x0 x3 (ix2 b k) = x3 (ix2 (Index.row 200000 (by decide) (Index.wrapWord 200000#32 (x0 (ix2 b (0 : Fin 1))))) k) := by
  have hw : (broadcastInDim S256x1 ![0] bcast_S256_S256x1_0 (wrap S256 bcast_S_S256 200000#32 (shapeCast S256 x0 shapeCasts_S256x1_S256)))
      (ix2 b (0 : Fin 1)) = Index.wrapWord 200000#32 (x0 (ix2 b (0 : Fin 1))) := by
    refine (broadcastInDim_apply _ bcast_S256_S256x1_0 _ (ix2 b (0 : Fin 1)) (ix1 b) (fun a => ?_)).trans ?_
    · match a with
      | ⟨0, _⟩ => show b.val = if (256 : Nat) = 1 then 0 else b.val; rw [if_neg (by decide)]
    · rw [wrap_apply]
      refine congrArg (Index.wrapWord 200000#32) ?_
      refine shapeCast_apply x0 shapeCasts_S256x1_S256 (ix1 b) (ix2 b (0 : Fin 1)) ?_
      rw [Shape.rowMajor_val_one, Shape.rowMajor_val_two]
      show b.val * 1 + 0 = b.val
      omega
  unfold headRows
  exact (Lib.Rows.gather_rows_apply (N := 200000) (C := 256) (K := 256) (by decide) gather_S200000x256_S256x1_S256x256_1_0_n_n_0_1_1256_wf x3 _ b k).trans
    (congrArg (fun w : BitVec 32 => x3 (ix2 (Index.row 200000 (by decide) w) k)) hw)

/-- The head through the affine map at (b, d), by halves. -/
theorem headFc_apply (b d : Fin 256) :
    headFc x0 x2 x3 x4 x5 x6 (ix2 b d)
      = Score.affSplit (fun d j => x5 (ix2 d j)) (fun d => x6 (ix1 d)) (fun k => headRows x0 x3 (ix2 b k))
          (fun k => relRows x2 x4 (ix2 b (Score.lo k))) d := by
  unfold headFc Score.affSplit
  show (Host.dotGeneral _ none (headRows x0 x3) (wLeftT x5) (ix2 b d) + Host.dotGeneral _ none _ (wRightT x5) (ix2 b d)) + biasRows x6 (ix2 b d) = _
  rw [square_apply, square_apply, biasRows_apply]
  refine congrArg₂ (· + ·) (congrArg₂ (· + ·) (Finset.sum_congr rfl fun k _ => ?_) (Finset.sum_congr rfl fun k _ => ?_)) rfl
  · rw [wLeftT_apply]
  · rw [wRightT_apply, leftHalf_apply]

/-- The tail's per-row offset at (b, d). -/
theorem tailOffset_apply (b d : Fin 256) :
    tailOffset x2 x4 x5 x6 (ix2 b d)
      = (∑ k : Fin 256, relRows x2 x4 (ix2 b (Score.hi k)) * x5 (ix2 d (Score.hi k))) + x6 (ix1 d) := by
  unfold tailOffset
  show Host.dotGeneral _ none _ (wRightT x5) (ix2 b d) + biasRows x6 (ix2 b d) = _
  rw [square_apply, biasRows_apply]
  refine congrArg₂ (· + ·) (Finset.sum_congr rfl fun k _ => ?_) rfl
  rw [wRightT_apply, rightHalf_apply]

end Cert.KernelIdeal.HostSide

end
-- ==== Proof.RefSide.lean ====
/-
  The reference's result read at an index.

  The reference joins each entity row with its half of the relation row along the last axis (the head's with columns
  0 … 255 of the relation row, the tails' with columns 256 … 511, the latter broadcast along the 1024 samples),
  multiplies the joined rows of width 512 by the weight in ONE contraction, adds the bias, divides each row of the
  result by its floored Euclidean length, and takes the margin less the ℓ¹ distance of head and tail. Entry (b, n) is
  therefore the score of the two unit vectors of the affine map's JOINED form; the join read position by position,
  the joined form is the form by halves (Score.lean), which is the statement here.
-/
import proofs.«400054_j32933809226069_3_alg».proof.Proof.Gen.ReferenceIdeal.Read
import proofs.«400054_j32933809226069_3_alg».proof.Proof.Score
import Idealize.ShloMosaic.Lib.ValueIdx
import Idealize.ShloMosaic.Lib.Pipeline.Value
import Idealize.ShloMosaic.PureOps.Ideal.Laws

noncomputable section

open scoped BigOperators

namespace Cert.ReferenceIdeal.RefSide

open Cert.ReferenceIdeal Cert.ReferenceIdeal.Gen Cert.ReferenceIdeal.Read Idealize.ShloMosaic Idealize.ShloMosaic.TcCoe Idealize.ShloMosaic.ValueIdx

abbrev I32 (s : Shape) : Type := (⟨s, .i32⟩ : BufTy).Contents (Elt Ideal)
abbrev F32 (s : Shape) : Type := (⟨s, .f32⟩ : BufTy).Contents (Elt Ideal)

variable (x0 : I32 S256x1) (x1 : I32 S256x1024) (x2 : I32 S256) (x3 : F32 S200000x256) (x4 : F32 S500x512) (x5 : F32 S256x512) (x6 : F32 S256)

/-- The head's entity row, the tails' entity rows, the relation rows, the weight and the bias, as families. -/
def headRow (b k : Fin 256) : EReal := val_main_v6 (F := Ideal) x0 x3 (ix3 b (0 : Fin 1) k)
def tailRow (b : Fin 256) (n : Fin 1024) (k : Fin 256) : EReal := val_main_v13 (F := Ideal) x1 x3 (ix3 b n k)
def relRow (b : Fin 256) (j : Fin 512) : EReal := val_main_v20 (F := Ideal) x2 x4 (ix2 b j)
def weight (d : Fin 256) (j : Fin 512) : EReal := x5 (ix2 d j)
def bias (d : Fin 256) : EReal := x6 (ix1 d)

/-- The head's joined row at position j: the entity row on the left half, columns 0 … 255 of the relation row on the right. -/
theorem headJoined_apply (b : Fin 256) (j : Fin 512) :
    val_main_v25 (F := Ideal) x0 x2 x3 x4 (ix3 b (0 : Fin 1) j)
      = Score.join (headRow x0 x3 b) (fun k => relRow x2 x4 b (Score.lo k)) j := by
  unfold val_main_v25 Score.join
  by_cases h : j.val < 256
  · rw [dif_pos h]
    exact concatenate_pair_apply_left (t := S256x1x512) (s₁ := S256x1x256) (s₂ := S256x1x256) 2 (val_main_v6 (F := Ideal) x0 x3) (val_main_v22 (F := Ideal) x2 x4)
      concatenates_S256x1x256_S256x1x256_S256x1x512_d2 (ix3 b (0 : Fin 1) j) rfl
      (ix3 b (0 : Fin 1) (⟨j.val, h⟩ : Fin 256)) (fun a => by match a with | ⟨0, _⟩ => rfl | ⟨1, _⟩ => rfl | ⟨2, _⟩ => rfl)
  · rw [dif_neg h]
    have hj : j.val - 256 < 256 := by have := j.isLt; omega
    refine (concatenate_pair_apply_right (t := S256x1x512) (s₁ := S256x1x256) (s₂ := S256x1x256) 2 (val_main_v6 (F := Ideal) x0 x3) (val_main_v22 (F := Ideal) x2 x4)
      concatenates_S256x1x256_S256x1x256_S256x1x512_d2 (ix3 b (0 : Fin 1) j) rfl rfl
      (ix3 b (0 : Fin 1) (⟨j.val - 256, hj⟩ : Fin 256)) (fun a ha => by
        match a with
        | ⟨0, _⟩ => rfl
        | ⟨1, _⟩ => rfl
        | ⟨2, _⟩ => exact absurd rfl ha) (by show (j.val - 256) + 256 = j.val; omega)).trans ?_
    rw [val_main_v22_apply, val_main_v21_apply]
    unfold relRow
    refine congrArg (val_main_v20 (F := Ideal) x2 x4) (funext fun a => Fin.ext ?_)
    match a with
    | ⟨0, _⟩ => rfl
    | ⟨1, _⟩ => rfl

/-- A tail's joined row at position j: the entity row on the left half, columns 256 … 511 of the relation row on the right. -/
theorem tailJoined_apply (b : Fin 256) (n : Fin 1024) (j : Fin 512) :
    val_main_v26 (F := Ideal) x1 x2 x3 x4 (ix3 b n j)
      = Score.join (tailRow x1 x3 b n) (fun k => relRow x2 x4 b (Score.hi k)) j := by
  unfold val_main_v26 Score.join
  by_cases h : j.val < 256
  · rw [dif_pos h]
    exact concatenate_pair_apply_left (t := S256x1024x512) (s₁ := S256x1024x256) (s₂ := S256x1024x256) 2 (val_main_v13 (F := Ideal) x1 x3) (val_main_v24 (F := Ideal) x2 x4)
      concatenates_S256x1024x256_S256x1024x256_S256x1024x512_d2 (ix3 b n j) rfl
      (ix3 b n (⟨j.val, h⟩ : Fin 256)) (fun a => by match a with | ⟨0, _⟩ => rfl | ⟨1, _⟩ => rfl | ⟨2, _⟩ => rfl)
  · rw [dif_neg h]
    have hj : j.val - 256 < 256 := by have := j.isLt; omega
    refine (concatenate_pair_apply_right (t := S256x1024x512) (s₁ := S256x1024x256) (s₂ := S256x1024x256) 2 (val_main_v13 (F := Ideal) x1 x3) (val_main_v24 (F := Ideal) x2 x4)
      concatenates_S256x1024x256_S256x1024x256_S256x1024x512_d2 (ix3 b n j) rfl rfl
      (ix3 b n (⟨j.val - 256, hj⟩ : Fin 256)) (fun a ha => by
        match a with
        | ⟨0, _⟩ => rfl
        | ⟨1, _⟩ => rfl
        | ⟨2, _⟩ => exact absurd rfl ha) (by show (j.val - 256) + 256 = j.val; omega)).trans ?_
    rw [val_main_v24_apply, val_main_v23_apply, val_main_v21_apply]
    unfold relRow
    refine congrArg (val_main_v20 (F := Ideal) x2 x4) (funext fun a => Fin.ext ?_)
    match a with
    | ⟨0, _⟩ => rfl
    | ⟨1, _⟩ => show 256 + (j.val - 256) = 256 + (j.val - 256); rfl

/-- The head through the affine map, joined form. -/
theorem headFc_apply (b d : Fin 256) :
    val_main_v30 (F := Ideal) x0 x2 x3 x4 x5 x6 (ix3 b (0 : Fin 1) d)
      = Score.affJoined (weight x5) (bias x6) (Score.join (headRow x0 x3 b) (fun k => relRow x2 x4 b (Score.lo k))) d := by
  rw [val_main_v30_apply, val_main_v27_apply, val_main_v29_apply, val_main_v28_apply]
  unfold Score.affJoined
  refine congrArg₂ (· + ·) (Finset.sum_congr rfl fun j _ => congrArg₂ (· * ·) ?_ ?_) ?_
  · exact (congrArg (val_main_v25 (F := Ideal) x0 x2 x3 x4) (funext fun a => Fin.ext (by
      match a with | ⟨0, _⟩ => rfl | ⟨1, _⟩ => rfl | ⟨2, _⟩ => rfl))).trans (headJoined_apply x0 x2 x3 x4 b j)
  · exact congrArg x5 (funext fun a => Fin.ext (by match a with | ⟨0, _⟩ => rfl | ⟨1, _⟩ => rfl))
  · exact congrArg x6 (funext fun a => Fin.ext (by match a with | ⟨0, _⟩ => rfl))

/-- A tail through the affine map, joined form. -/
theorem tailFc_apply (b : Fin 256) (n : Fin 1024) (d : Fin 256) :
    val_main_v34 (F := Ideal) x1 x2 x3 x4 x5 x6 (ix3 b n d)
      = Score.affJoined (weight x5) (bias x6) (Score.join (tailRow x1 x3 b n) (fun k => relRow x2 x4 b (Score.hi k))) d := by
  rw [val_main_v34_apply, val_main_v31_apply, val_main_v33_apply, val_main_v32_apply]
  unfold Score.affJoined
  refine congrArg₂ (· + ·) (Finset.sum_congr rfl fun j _ => congrArg₂ (· * ·) ?_ ?_) ?_
  · exact (congrArg (val_main_v26 (F := Ideal) x1 x2 x3 x4) (funext fun a => Fin.ext (by
      match a with | ⟨0, _⟩ => rfl | ⟨1, _⟩ => rfl | ⟨2, _⟩ => rfl))).trans (tailJoined_apply x1 x2 x3 x4 b n j)
  · exact congrArg x5 (funext fun a => Fin.ext (by match a with | ⟨0, _⟩ => rfl | ⟨1, _⟩ => rfl))
  · exact congrArg x6 (funext fun a => Fin.ext (by match a with | ⟨0, _⟩ => rfl))

/-- The head's unit vector. -/
theorem headUnit_apply (b d : Fin 256) :
    val_main_v42 (F := Ideal) x0 x2 x3 x4 x5 x6 (ix3 b (0 : Fin 1) d)
      = Score.unit (fun d' => val_main_v30 (F := Ideal) x0 x2 x3 x4 x5 x6 (ix3 b (0 : Fin 1) d')) d := by
  rw [val_main_v42_apply, val_main_v41_apply, val_main_v40_apply, val_main_v38_apply, val_main_v37_apply, val_main_v36_apply,
    val_main_v39_apply, val_main_cst_5_apply, val_main_cst_apply]
  unfold Score.unit Score.len
  show Ideal.div _ (max (Ideal.sqrt (Ideal.ofBits .f32 0x00000000#32 + _)) _) = _
  rw [Ideal.ofBits_zero_f32, zero_add]
  refine congrArg₂ Ideal.div rfl (congrArg₂ max (congrArg Ideal.sqrt (Finset.sum_congr rfl fun k _ => ?_)) rfl)
  rw [val_main_v35_apply]
  show val_main_v30 (F := Ideal) x0 x2 x3 x4 x5 x6 _ * val_main_v30 (F := Ideal) x0 x2 x3 x4 x5 x6 _ = _
  have e : idx_main_v36 (idx_main_v37 (idx_main_v41 (ix3 b (0 : Fin 1) d))) k = ix3 b (0 : Fin 1) k :=
    funext fun a => Fin.ext (by match a with | ⟨0, _⟩ => rfl | ⟨1, _⟩ => rfl | ⟨2, _⟩ => rfl)
  rw [e]

/-- A tail's unit vector. -/
theorem tailUnit_apply (b : Fin 256) (n : Fin 1024) (d : Fin 256) :
    val_main_v50 (F := Ideal) x1 x2 x3 x4 x5 x6 (ix3 b n d)
      = Score.unit (fun d' => val_main_v34 (F := Ideal) x1 x2 x3 x4 x5 x6 (ix3 b n d')) d := by
  rw [val_main_v50_apply, val_main_v49_apply, val_main_v48_apply, val_main_v46_apply, val_main_v45_apply, val_main_v44_apply,
    val_main_v47_apply, val_main_cst_7_apply, val_main_cst_6_apply]
  unfold Score.unit Score.len
  show Ideal.div _ (max (Ideal.sqrt (Ideal.ofBits .f32 0x00000000#32 + _)) _) = _
  rw [Ideal.ofBits_zero_f32, zero_add]
  refine congrArg₂ Ideal.div rfl (congrArg₂ max (congrArg Ideal.sqrt (Finset.sum_congr rfl fun k _ => ?_)) rfl)
  rw [val_main_v43_apply]
  show val_main_v34 (F := Ideal) x1 x2 x3 x4 x5 x6 _ * val_main_v34 (F := Ideal) x1 x2 x3 x4 x5 x6 _ = _
  have e : idx_main_v44 (idx_main_v45 (idx_main_v49 (ix3 b n d))) k = ix3 b n k :=
    funext fun a => Fin.ext (by match a with | ⟨0, _⟩ => rfl | ⟨1, _⟩ => rfl | ⟨2, _⟩ => rfl)
  rw [e]

/-- ENTRY (b, n) OF THE REFERENCE'S RESULT. -/
theorem result_apply (b : Fin 256) (n : Fin 1024) :
    val_main_v56 (F := Ideal) x0 x1 x2 x3 x4 x5 x6 (ix2 b n)
      = Score.result (headRow x0 x3) (tailRow x1 x3) (relRow x2 x4) (weight x5) (bias x6) b n := by
  rw [val_main_v56_apply, val_main_v55_apply, val_main_cst_9_apply, val_main_v54_apply, val_main_cst_8_apply]
  unfold Score.result Score.score
  show Ideal.ofBits .f32 0x41400000#32 - (Ideal.ofBits .f32 0x00000000#32 + _) = _
  rw [Ideal.ofBits_zero_f32, zero_add]
  refine congrArg₂ (· - ·) rfl (Finset.sum_congr rfl fun d _ => ?_)
  rw [val_main_v53_apply, val_main_v52_apply, val_main_v51_apply]
  have e1 : idx_main_v51 (idx_main_v54 (ix2 b n) d) = ix3 b (0 : Fin 1) d :=
    funext fun a => Fin.ext (by match a with | ⟨0, _⟩ => rfl | ⟨1, _⟩ => rfl | ⟨2, _⟩ => rfl)
  have e2 : idx_main_v54 (ix2 b n) d = ix3 b n d :=
    funext fun a => Fin.ext (by match a with | ⟨0, _⟩ => rfl | ⟨1, _⟩ => rfl | ⟨2, _⟩ => rfl)
  rw [e1, e2, headUnit_apply, tailUnit_apply]
  have hh : (fun d' => val_main_v30 (F := Ideal) x0 x2 x3 x4 x5 x6 (ix3 b (0 : Fin 1) d'))
      = Score.affSplit (weight x5) (bias x6) (headRow x0 x3 b) (fun k => relRow x2 x4 b (Score.lo k)) := by
    rw [← Score.affJoined_join]; funext d'; exact headFc_apply x0 x2 x3 x4 x5 x6 b d'
  have ht : (fun d' => val_main_v34 (F := Ideal) x1 x2 x3 x4 x5 x6 (ix3 b n d'))
      = Score.affSplit (weight x5) (bias x6) (tailRow x1 x3 b n) (fun k => relRow x2 x4 b (Score.hi k)) := by
    rw [← Score.affJoined_join]; funext d'; exact tailFc_apply x1 x2 x3 x4 x5 x6 b n d'
  rw [hh, ht]
  rfl

end Cert.ReferenceIdeal.RefSide

end
-- ==== Proof.LibRows3.lean ====
/-
  General lemma: jnp's row take `x[idx]` of a table x : [N, C] at an index array idx : [B, M] read at an index.

  `Host.gather` with offset_dims [2], collapsed_slice_dims [0], start_index_map [0], index_vector_dim 2 and slice
  sizes [1, C], over an operand [N, C] and start indices [B, M, 1], reads at (b, n, c) the operand's row
  idx[b, n, 0] (read signed, clamped into [0, N − 1]) at column c.
-/
import Idealize.ShloMosaic.PureOps.Ideal
import Idealize.ShloMosaic.Lib.ValueIdx

noncomputable section

namespace Cert.Lib.Rows3

open Idealize.ShloMosaic Idealize.ShloMosaic.ValueIdx

/-- The dimension numbers of a row take at a rank-2 index array: operand [N, C], start indices [B, M, 1], result [B, M, C]. -/
abbrev gatherDims (N C B M : Nat)
    (wf : GatherDims.WF ⟨2, ![N, C]⟩ ⟨3, ![B, M, 1]⟩ ⟨3, ![B, M, C]⟩ [2] [0] [] [0] [] 2 ![1, C]) :
    GatherDims ⟨2, ![N, C]⟩ ⟨3, ![B, M, 1]⟩ ⟨3, ![B, M, C]⟩ where
  offsetDims := [2]
  collapsedSliceDims := [0]
  operandBatchingDims := []
  startIndicesBatchingDims := []
  startIndexMap := [0]
  indexVectorDim := 2
  sliceSizes := ![1, C]
  wf := wf

/-- THE ROW TAKE READ AT (b, n, c): the operand at row idx[b, n, 0], read signed and clamped into [0, N − 1], column c. -/
theorem gather_rows3_apply {α : Type} {N C B M w : Nat} (hN : 0 < N)
    (wf : GatherDims.WF ⟨2, ![N, C]⟩ ⟨3, ![B, M, 1]⟩ ⟨3, ![B, M, C]⟩ [2] [0] [] [0] [] 2 ![1, C])
    (x : (⟨2, ![N, C]⟩ : Shape).Idx → α) (idx : IVec ⟨3, ![B, M, 1]⟩ w) (b : Fin B) (n : Fin M) (c : Fin C) :
    Host.gather (gatherDims N C B M wf) x idx (ix3 b n c)
      = x (ix2 ⟨min (idx (ix3 b n (0 : Fin 1))).toInt.toNat (N - 1), by omega⟩ c) := by
  unfold Host.gather
  congr 1
  funext a
  refine Fin.ext ?_
  match a with
  | ⟨0, _⟩ =>
    -- the collapsed axis: the clamped start index; no batching coordinate and no offset coordinate
    show (gatherDims N C B M wf).start (ix3 b n c) idx 0 + (gatherDims N C B M wf).batchCoord (ix3 b n c) 0
      + (gatherDims N C B M wf).offCoord (ix3 b n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N C B M wf).startIndexMap from List.mem_singleton.mpr rfl)]
    have hsi : (gatherDims N C B M wf).siIdx (ix3 b n c) ⟨List.idxOf (0 : Fin 2) (gatherDims N C B M wf).startIndexMap,
        List.idxOf_lt_length_iff.2 (List.mem_singleton.mpr rfl)⟩ = ix3 b n (0 : Fin 1) := by
      funext d; refine Fin.ext ?_
      match d with
      | ⟨0, _⟩ => rfl
      | ⟨1, _⟩ => rfl
      | ⟨2, _⟩ => rfl
    rw [hsi]
    rfl
  | ⟨1, _⟩ =>
    -- the offset axis: start 0, no batching coordinate, the result's column
    show (gatherDims N C B M wf).start (ix3 b n c) idx 1 + (gatherDims N C B M wf).batchCoord (ix3 b n c) 1
      + (gatherDims N C B M wf).offCoord (ix3 b n c) 1 = c.val
    rw [GatherDims.batchCoord_eq_zero _ _ _ List.not_mem_nil]
    have hst : (gatherDims N C B M wf).start (ix3 b n c) idx 1 = 0 := by
      unfold GatherDims.start
      rw [dif_neg (show (1 : Fin 2) ∉ (gatherDims N C B M wf).startIndexMap from by
        intro h; exact Nat.one_ne_zero (congrArg Fin.val (List.mem_singleton.mp h)))]
    have hoff : (gatherDims N C B M wf).offCoord (ix3 b n c) 1 = c.val := by
      unfold GatherDims.offCoord
      rw [dif_pos (show (1 : Fin 2) ∈ (gatherDims N C B M wf).sKept from
        (GatherDims.mem_sKept _ _).mpr ⟨fun h => Nat.one_ne_zero (congrArg Fin.val (List.mem_singleton.mp h)), List.not_mem_nil⟩)]
      rfl
    rw [hst, hoff]; simp

end Cert.Lib.Rows3

end
-- ==== Proof.RefGather.lean ====
/-
  The reference's head rows: the entity table taken at the (wrapped) head indices, kept with a unit sample axis.
  Entry (b, 0, k) is the table's row named by the wrapped head index of batch row b, column k.
-/
import proofs.«400054_j32933809226069_3_alg».proof.Proof.Gen.ReferenceIdeal.Read
import proofs.«400054_j32933809226069_3_alg».proof.Proof.LibRows3
import proofs.«400054_j32933809226069_3_alg».proof.Proof.Index

noncomputable section

namespace Cert.ReferenceIdeal.RefGather

open Cert.ReferenceIdeal Cert.ReferenceIdeal.Gen Cert.ReferenceIdeal.Read Idealize.ShloMosaic Idealize.ShloMosaic.TcCoe Idealize.ShloMosaic.ValueIdx

theorem headRow_apply (x0 : (⟨S256x1, .i32⟩ : BufTy).Contents (Elt Ideal)) (x3 : (⟨S200000x256, .f32⟩ : BufTy).Contents (Elt Ideal)) (b k : Fin 256) :
    val_main_v6 (F := Ideal) x0 x3 (ix3 b (0 : Fin 1) k)
      = x3 (ix2 (Index.row 200000 (by decide) (Index.wrapWord 200000#32 (x0 (ix2 b (0 : Fin 1))))) k) := by
  unfold val_main_v6 Index.row
  refine (Lib.Rows3.gather_rows3_apply (N := 200000) (C := 256) (B := 256) (M := 1) (by decide)
    gather_S200000x256_S256x1x1_S256x1x256_2_0_n_n_0_2_1256_wf x3 _ b (0 : Fin 1) k).trans ?_
  refine congrArg x3 ?_
  congr 2
  rw [val_main_v5_apply, val_main_v4_apply, val_main_v1_apply, val_main_v3_apply, val_main_v0_apply, val_main_v2_apply]
  have e : idx_main_v5 (ix3 b (0 : Fin 1) (0 : Fin 1)) = ix2 b (0 : Fin 1) :=
    funext fun a => Fin.ext (by match a with | ⟨0, _⟩ => rfl | ⟨1, _⟩ => rfl)
  rw [e]
  rfl

end Cert.ReferenceIdeal.RefGather

end
-- ==== Proof.Bridge.lean ====
/-
  The two results are one function of the arguments.

  Kernel side: entry (b, n) is the score of the normalised head row b against the unit vector of
      Σ_k T[b, n, k] · W[d, k]  +  ( Σ_k R[b, 256 + k] · W[d, 256 + k] + β[d] ),
  the head row itself the unit vector of  Σ_k H[b, k] · W[d, k] + Σ_k R[b, k] · W[d, 256 + k] + β[d].
  Reference side: the same two unit vectors with each affine map taken as ONE sum over the joined row of width 512.
  The takes that give T and R are the same operations in both programs; the two takes of the head row differ only in
  the shape of the index array and read the same table row. Associativity of + on the extended reals joins the
  kernel's bracketing to the form by halves, and the split of the 512-term sum joins that to the reference's.
-/
import proofs.«400054_j32933809226069_3_alg».proof.Proof.WholeArray
import proofs.«400054_j32933809226069_3_alg».proof.Proof.HostRead
import proofs.«400054_j32933809226069_3_alg».proof.Proof.RefSide
import proofs.«400054_j32933809226069_3_alg».proof.Proof.RefGather

noncomputable section

open scoped BigOperators

namespace Cert.Bridge

open Idealize.ShloMosaic Idealize.ShloMosaic.TcCoe Idealize.ShloMosaic.ValueIdx
open Cert.KernelIdeal (S256x1 S256x1024 S256 S200000x256 S500x512 S256x512 S256x256 S256x1024x256)
open Cert.KernelIdeal.HostSide (I32 F32)

variable (x0 : I32 S256x1) (x1 : I32 S256x1024) (x2 : I32 S256) (x3 : F32 S200000x256) (x4 : F32 S500x512) (x5 : F32 S256x512) (x6 : F32 S256)

/-- The relation rows and the tail rows are taken by the same operations in both programs. -/
theorem relRows_eq : Cert.KernelIdeal.HostSide.relRows x2 x4 = Cert.ReferenceIdeal.Read.val_main_v20 (F := Ideal) x2 x4 := rfl
theorem tailRows_eq : Cert.KernelIdeal.HostSide.tailRows x1 x3 = Cert.ReferenceIdeal.Read.val_main_v13 (F := Ideal) x1 x3 := rfl

/-- The head rows, taken through index arrays of two shapes, are the same table rows. -/
theorem headRows_eq (b k : Fin 256) :
    Cert.KernelIdeal.HostSide.headRows x0 x3 (ix2 b k) = Cert.ReferenceIdeal.RefSide.headRow x0 x3 b k := by
  unfold Cert.ReferenceIdeal.RefSide.headRow
  rw [Cert.KernelIdeal.HostSide.headRows_apply, Cert.ReferenceIdeal.RefGather.headRow_apply]

/-- THE KERNEL'S WHOLE-ARRAY FUNCTION of the four arrays the region reads, those arrays being what @main's host
    operations make of the arguments, IS the reference's result. -/
theorem results_agree (T : FVec Ideal S256x1024x256 .bf16) (O : F32 S256x256) (Wt : FVec Ideal S256x256 .bf16) (Hn : F32 S256x256)
    (hT : T = truncf .bf16 (Cert.KernelIdeal.HostSide.tailRows x1 x3) Cert.KernelIdeal.Gen.bitsLt_bf16_f32)
    (hO : O = Cert.KernelIdeal.HostSide.tailOffset x2 x4 x5 x6)
    (hW : Wt = truncf .bf16 (Cert.KernelIdeal.HostSide.wLeftT x5) Cert.KernelIdeal.Gen.bitsLt_bf16_f32)
    (hH : Hn = Cert.KernelIdeal.HostSide.rowUnit (Cert.KernelIdeal.HostSide.headFc x0 x2 x3 x4 x5 x6)) :
    Cert.KernelIdeal.Whole.wholeFn T O Wt Hn = Cert.ReferenceIdeal.Read.val_main_v56 (F := Ideal) x0 x1 x2 x3 x4 x5 x6 := by
  subst hT hO hW hH
  funext i
  obtain ⟨b, n, rfl⟩ : ∃ (b : Fin 256) (n : Fin 1024), i = ix2 b n := ⟨i 0, i 1, eq_ix2 i⟩
  rw [Cert.ReferenceIdeal.RefSide.result_apply]
  unfold Cert.KernelIdeal.Whole.wholeFn Score.result
  refine congrArg₂ Score.score (funext fun d => ?_) (congrArg Score.unit (funext fun d => ?_))
  · -- the head: the row's unit vector, the row the affine map by halves
    show Cert.KernelIdeal.HostSide.rowUnit (Cert.KernelIdeal.HostSide.headFc x0 x2 x3 x4 x5 x6) (ix2 b d) = _
    rw [Cert.KernelIdeal.HostSide.rowUnit_apply]
    refine congrArg (fun f => Score.unit f d) (funext fun d' => ?_)
    rw [Cert.KernelIdeal.HostSide.headFc_apply]
    unfold Score.affSplit
    refine congrArg₂ (· + ·) (congrArg₂ (· + ·) (Finset.sum_congr rfl fun k _ => congrArg₂ (· * ·) ?_ rfl)
      (Finset.sum_congr rfl fun k _ => congrArg₂ (· * ·) ?_ rfl)) rfl
    · exact headRows_eq x0 x3 b k
    · rw [relRows_eq]; rfl
  · -- a tail: the kernel's bracketing is the affine map by halves
    show (∑ k : Fin 256, (truncf .bf16 (Cert.KernelIdeal.HostSide.tailRows x1 x3) Cert.KernelIdeal.Gen.bitsLt_bf16_f32) (ix3 b n k)
          * (truncf .bf16 (Cert.KernelIdeal.HostSide.wLeftT x5) Cert.KernelIdeal.Gen.bitsLt_bf16_f32) (ix2 k d))
        + Cert.KernelIdeal.HostSide.tailOffset x2 x4 x5 x6 (ix2 b d) = _
    rw [Cert.KernelIdeal.HostSide.tailOffset_apply, ← Score.affSplit_assoc]
    refine congrArg₂ (· + ·) (Finset.sum_congr rfl fun k _ => ?_) (congrArg₂ (· + ·) (Finset.sum_congr rfl fun k _ => ?_) rfl)
    · show Cert.KernelIdeal.HostSide.tailRows x1 x3 (ix3 b n k) * Cert.KernelIdeal.HostSide.wLeftT x5 (ix2 k d) = _
      rw [Cert.KernelIdeal.HostSide.wLeftT_apply, tailRows_eq]
      rfl
    · rw [relRows_eq]; rfl

end Cert.Bridge

end
-- ==== Proof.lean ====
/-
  The certificate: a knowledge-graph scoring kernel against its jnp reference, equal over the extended reals.

  Both programs take, per batch row, a head entity row, 1024 tail entity rows and a relation row; join each entity row
  with half of the relation row, send it through one shared affine map W y + β, normalise to unit Euclidean length
  (floored), and score  12 − ‖ĥ − t̂‖₁.  The reference forms W (x ⊕ r) as one contraction over the joined width 512;
  the kernel splits W by halves, computes the head branch and the tails' relation part W_right r + β once per row on
  the host, and leaves to its pipelined body only the tails' W_left x, the normalisation and the distance, eight batch
  rows per grid point and 256 samples per loop trip. On the extended reals the two differ by the association of sums
  only (Score.lean), so the claim needs no finiteness.

  The frames of the two kernel programs are generated; the reference's frame is its generated run. The ideal pass
  rewrote nothing, so there is nothing to preserve. The value claim sets the kernel's run, with its result array named
  as one function of the arrays the region reads (WholeArray.lean over Block.lean and Payload.lean), beside the
  reference's run, and Bridge.lean shows the two result terms equal entry by entry.
-/
import proofs.«400054_j32933809226069_3_alg».proof.Defs
import proofs.«400054_j32933809226069_3_alg».proof.Proof.Gen.Kernel
import proofs.«400054_j32933809226069_3_alg».proof.Proof.Gen.Kernel.Skeleton
import proofs.«400054_j32933809226069_3_alg».proof.Proof.Gen.Kernel.Loops
import proofs.«400054_j32933809226069_3_alg».proof.Proof.Gen.Kernel.Launch
import proofs.«400054_j32933809226069_3_alg».proof.Proof.Gen.Kernel.Points
import proofs.«400054_j32933809226069_3_alg».proof.Proof.Gen.Kernel.Frame
import proofs.«400054_j32933809226069_3_alg».proof.Proof.Gen.KernelIdeal
import proofs.«400054_j32933809226069_3_alg».proof.Proof.Gen.KernelIdeal.Skeleton
import proofs.«400054_j32933809226069_3_alg».proof.Proof.Gen.KernelIdeal.Loops
import proofs.«400054_j32933809226069_3_alg».proof.Proof.Gen.KernelIdeal.Launch
import proofs.«400054_j32933809226069_3_alg».proof.Proof.Gen.KernelIdeal.Points
import proofs.«400054_j32933809226069_3_alg».proof.Proof.Gen.KernelIdeal.Frame
import proofs.«400054_j32933809226069_3_alg».proof.Proof.Gen.ReferenceIdeal
import proofs.«400054_j32933809226069_3_alg».proof.Proof.Gen.Pre_finite_inputs
import proofs.«400054_j32933809226069_3_alg».proof.Proof.Gen.KernelIdeal.Value
import proofs.«400054_j32933809226069_3_alg».proof.Proof.Gen.ReferenceIdeal.Run
import proofs.«400054_j32933809226069_3_alg».proof.Proof.Gen.ReferenceIdeal.Read
import proofs.«400054_j32933809226069_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel's result array ends at the whole-array score function of the arrays its region reads; the reference's at
    its composed term; from arguments that agree the two are one function. -/
theorem algebraic : Cert.algebraic_KernelIdeal_ReferenceIdeal := by
  intro m ρ m' ρ' _ hagree
  refine ⟨fun c => Cert.KernelIdeal.Whole.wholeFn (Cert.KernelIdeal.Gen.V m c Cert.KernelIdeal.main_v15) (Cert.KernelIdeal.Gen.V m c Cert.KernelIdeal.main_v46)
      (Cert.KernelIdeal.Gen.V m c Cert.KernelIdeal.main_v47) (Cert.KernelIdeal.Gen.V m c Cert.KernelIdeal.main_v42),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, (hagree c).1, (hagree c).2.1, (hagree c).2.2.1, (hagree c).2.2.2.1,
    (hagree c).2.2.2.2.1, (hagree c).2.2.2.2.2.1, (hagree c).2.2.2.2.2.2]
  exact (Cert.Bridge.results_agree _ _ _ _ _ _ _ _ _ _ _ (Cert.KernelIdeal.HostSide.V_tail m c) (Cert.KernelIdeal.HostSide.V_offset m c)
    (Cert.KernelIdeal.HostSide.V_weight m c) (Cert.KernelIdeal.HostSide.V_head m c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
